-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x7x7x30 : Shape := ⟨4, ![65536, 7, 7, 30]⟩
abbrev S_ : Shape := ⟨0, ![]⟩

class Facts : Prop where
  bcast_S_S65536x7x7x30 : S_.BroadcastsInDim S65536x7x7x30 (![] : Fin 0 → Fin S65536x7x7x30.rank)
  reducesTo_S65536x7x7x30_S_d0_1_2_3 : S65536x7x7x30.ReducesTo [0, 1, 2, 3] S_
  h_S_ : 0 < S_.numel

variable [Facts]

def fn {F : FTy → Type} [FloatOps F] (main_arg0 : FVec F S65536x7x7x30 .f32) (main_arg1 : FVec F S65536x7x7x30 .f32) : IVec S_ 1 :=
  let main_v0 : FVec F S65536x7x7x30 .f32 := Host.absf main_arg0
  let main_cst : FVec F S_ .f32 := constant S_ .f32 0x7F800000#32
  let main_v1 : FVec F S65536x7x7x30 .f32 := broadcastInDim S65536x7x7x30 ![] bcast_S_S65536x7x7x30 main_cst
  let main_v2 : IVec S65536x7x7x30 1 := cmpf .olt main_v0 main_v1
  let main_c : IVec S_ 1 := constantI S_ 1 1#1
  let main_v3 : IVec S_ 1 := (fun x v => Host.reduce IntOp.andi x v reducesTo_S65536x7x7x30_S_d0_1_2_3 h_S_) main_v2 main_c
  let main_v4 : FVec F S65536x7x7x30 .f32 := Host.absf main_arg1
  let main_cst_0 : FVec F S_ .f32 := constant S_ .f32 0x7F800000#32
  let main_v5 : FVec F S65536x7x7x30 .f32 := broadcastInDim S65536x7x7x30 ![] bcast_S_S65536x7x7x30 main_cst_0
  let main_v6 : IVec S65536x7x7x30 1 := cmpf .olt main_v4 main_v5
  let main_c_1 : IVec S_ 1 := constantI S_ 1 1#1
  let main_v7 : IVec S_ 1 := (fun x v => Host.reduce IntOp.andi x v reducesTo_S65536x7x7x30_S_d0_1_2_3 h_S_) main_v6 main_c_1
  let main_v8 : IVec S_ 1 := andi main_v3 main_v7
  main_v8
-- ==== Kernel.lean ====
abbrev S65536x7x7x30 : Shape := ⟨4, ![65536, 7, 7, 30]⟩
abbrev S3211264x30 : Shape := ⟨2, ![3211264, 30]⟩
abbrev S2x1x1 : Shape := ⟨3, ![2, 1, 1]⟩
abbrev S16384x30 : Shape := ⟨2, ![16384, 30]⟩
abbrev S1x1x1 : Shape := ⟨3, ![1, 1, 1]⟩
abbrev S1x1 : Shape := ⟨2, ![1, 1]⟩
abbrev S16384x4 : Shape := ⟨2, ![16384, 4]⟩
abbrev S16384x1 : Shape := ⟨2, ![16384, 1]⟩
abbrev S16384 : Shape := ⟨1, ![16384]⟩
abbrev S1 : Shape := ⟨1, ![1]⟩
abbrev S16384x20 : Shape := ⟨2, ![16384, 20]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S65536x7x7x30, .f32⟩
  | .hbm, ⟨1, _⟩ => ⟨S65536x7x7x30, .f32⟩
  | .hbm, ⟨2, _⟩ => ⟨S3211264x30, .f32⟩
  | .hbm, ⟨3, _⟩ => ⟨S3211264x30, .f32⟩
  | .hbm, ⟨4, _⟩ => ⟨S2x1x1, .f32⟩
  | .hbm, ⟨5, _⟩ => ⟨S_, .f32⟩
  | .hbm, ⟨6, _⟩ => ⟨S_, .f32⟩
  | .local _ .vmem, ⟨0, _⟩ => ⟨S16384x30, .f32⟩
  | .local _ .vmem, ⟨1, _⟩ => ⟨S16384x30, .f32⟩
  | .local _ .vmem, ⟨2, _⟩ => ⟨S16384x30, .f32⟩
  | .local _ .vmem, ⟨3, _⟩ => ⟨S16384x30, .f32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | _, _ => ⟨S65536x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 98], ![false, false]⟩

def k0_cond2 (i : grid0.Coords) : BitVec 1 :=
  let arg1 : BitVec 32 := BitVec.ofNat 32 (i 1).val
  let c97_i32 : BitVec 32 := 97#32
  let v198 : BitVec 1 := Scalar.cmpi .eq arg1 c97_i32
  let v199 : BitVec 32 := Scalar.extui v198
  let c0_i32_42 : BitVec 32 := 0#32
  let v200 : BitVec 1 := Scalar.cmpi .ne v199 c0_i32_42
  v200

def cc0_transform_0 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c98_i32 : BitVec 32 := 98#32
  let v0 : BitVec 32 := Scalar.muli arg0 c98_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16384x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S65536x7x7x30_S3211264x30 : S65536x7x7x30.ShapeCasts S3211264x30
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S16384x30_S16384x30_0_0 : ∀ a, (![0, 0] : Fin 2 → Nat) a + S16384x30.size a ≤ S16384x30.size a
  h_S16384x30 : 0 < S16384x30.numel
  shapeCasts_S16384x30_S16384x30 : S16384x30.ShapeCasts S16384x30
  slices_S16384x30_o0_21_S16384x4 : S16384x30.Slices ![0, 21] S16384x4
  slices_S16384x30_o0_26_S16384x4 : S16384x30.Slices ![0, 26] S16384x4
  slices_S16384x4_o0_0_S16384x1 : S16384x4.Slices ![0, 0] S16384x1
  slices_S16384x4_o0_2_S16384x1 : S16384x4.Slices ![0, 2] S16384x1
  slices_S16384x4_o0_1_S16384x1 : S16384x4.Slices ![0, 1] S16384x1
  slices_S16384x4_o0_3_S16384x1 : S16384x4.Slices ![0, 3] S16384x1
  natLt_1_32 : 1 < 32
  slices_S16384x30_o0_20_S16384x1 : S16384x30.Slices ![0, 20] S16384x1
  slices_S16384x30_o0_29_S16384x1 : S16384x30.Slices ![0, 29] S16384x1
  reduces_S16384x1_S16384 : S16384x1.Reduces [1] S16384
  shapeCasts_S16384_S16384x1 : S16384.ShapeCasts S16384x1
  reduces_S16384x1_S1 : S16384x1.Reduces [0] S1
  shapeCasts_S1_S1x1 : S1.ShapeCasts S1x1
  slices_S16384x30_o0_0_S16384x20 : S16384x30.Slices ![0, 0] S16384x20
  broadcasts_S16384x1_S16384x20 : S16384x1.Broadcasts S16384x20
  reduces_S16384x20_S16384 : S16384x20.Reduces [1] S16384
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x30.size a ≤ S3211264x30.size a
  hwx0_0 : ∀ i : grid0.Coords, EltTy.bits .f32 = 32 ∨ (Rect.block (s := S3211264x30) S16384x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x30.size a ≤ S3211264x30.size a
  hwx0_1 : ∀ i : grid0.Coords, EltTy.bits .f32 = 32 ∨ (Rect.block (s := S3211264x30) S16384x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S16384x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S65536x7x7x30 : Shape := ⟨4, ![65536, 7, 7, 30]⟩
abbrev S65536x7x7x4 : Shape := ⟨4, ![65536, 7, 7, 4]⟩
abbrev S65536x7x7x1 : Shape := ⟨4, ![65536, 7, 7, 1]⟩
abbrev S_ : Shape := ⟨0, ![]⟩
abbrev S65536x7x7x20 : Shape := ⟨4, ![65536, 7, 7, 20]⟩

abbrev nBuf : Space → Nat
  | .hbm => 216
  | .vmem => 0
  | .smem => 0
  | _ => 0

abbrev hbmTy0_0 (i : Nat) : BufTy := match i % 128 with
  | 0 => ⟨S65536x7x7x30, .f32⟩
  | 1 => ⟨S65536x7x7x30, .f32⟩
  | 2 => ⟨S65536x7x7x4, .f32⟩
  | 3 => ⟨S65536x7x7x4, .f32⟩
  | 4 => ⟨S65536x7x7x1, .f32⟩
  | 5 => ⟨S65536x7x7x1, .f32⟩
  | 6 => ⟨S_, .f32⟩
  | 7 => ⟨S65536x7x7x1, .f32⟩
  | 8 => ⟨S65536x7x7x1, .f32⟩
  | 9 => ⟨S65536x7x7x1, .f32⟩
  | 10 => ⟨S65536x7x7x1, .f32⟩
  | 11 => ⟨S65536x7x7x1, .f32⟩
  | 12 => ⟨S_, .f32⟩
  | 13 => ⟨S65536x7x7x1, .f32⟩
  | 14 => ⟨S65536x7x7x1, .f32⟩
  | 15 => ⟨S65536x7x7x1, .f32⟩
  | 16 => ⟨S65536x7x7x1, .f32⟩
  | 17 => ⟨S65536x7x7x1, .f32⟩
  | 18 => ⟨S_, .f32⟩
  | 19 => ⟨S65536x7x7x1, .f32⟩
  | 20 => ⟨S65536x7x7x1, .f32⟩
  | 21 => ⟨S65536x7x7x1, .f32⟩
  | 22 => ⟨S65536x7x7x1, .f32⟩
  | 23 => ⟨S65536x7x7x1, .f32⟩
  | 24 => ⟨S_, .f32⟩
  | 25 => ⟨S65536x7x7x1, .f32⟩
  | 26 => ⟨S65536x7x7x1, .f32⟩
  | 27 => ⟨S65536x7x7x1, .f32⟩
  | 28 => ⟨S65536x7x7x1, .f32⟩
  | 29 => ⟨S65536x7x7x1, .f32⟩
  | 30 => ⟨S_, .f32⟩
  | 31 => ⟨S65536x7x7x1, .f32⟩
  | 32 => ⟨S65536x7x7x1, .f32⟩
  | 33 => ⟨S65536x7x7x1, .f32⟩
  | 34 => ⟨S65536x7x7x1, .f32⟩
  | 35 => ⟨S65536x7x7x1, .f32⟩
  | 36 => ⟨S_, .f32⟩
  | 37 => ⟨S65536x7x7x1, .f32⟩
  | 38 => ⟨S65536x7x7x1, .f32⟩
  | 39 => ⟨S65536x7x7x1, .f32⟩
  | 40 => ⟨S65536x7x7x1, .f32⟩
  | 41 => ⟨S65536x7x7x1, .f32⟩
  | 42 => ⟨S_, .f32⟩
  | 43 => ⟨S65536x7x7x1, .f32⟩
  | 44 => ⟨S65536x7x7x1, .f32⟩
  | 45 => ⟨S65536x7x7x1, .f32⟩
  | 46 => ⟨S65536x7x7x1, .f32⟩
  | 47 => ⟨S65536x7x7x1, .f32⟩
  | 48 => ⟨S_, .f32⟩
  | 49 => ⟨S65536x7x7x1, .f32⟩
  | 50 => ⟨S65536x7x7x1, .f32⟩
  | 51 => ⟨S65536x7x7x1, .f32⟩
  | 52 => ⟨S65536x7x7x1, .f32⟩
  | 53 => ⟨S65536x7x7x1, .f32⟩
  | 54 => ⟨S65536x7x7x1, .f32⟩
  | 55 => ⟨S65536x7x7x1, .f32⟩
  | 56 => ⟨S65536x7x7x1, .f32⟩
  | 57 => ⟨S_, .i32⟩
  | 58 => ⟨S_, .f32⟩
  | 59 => ⟨S65536x7x7x1, .f32⟩
  | 60 => ⟨S65536x7x7x1, .f32⟩
  | 61 => ⟨S65536x7x7x1, .f32⟩
  | 62 => ⟨S_, .i32⟩
  | 63 => ⟨S_, .f32⟩
  | 64 => ⟨S65536x7x7x1, .f32⟩
  | 65 => ⟨S65536x7x7x1, .f32⟩
  | 66 => ⟨S65536x7x7x1, .f32⟩
  | 67 => ⟨S65536x7x7x1, .f32⟩
  | 68 => ⟨S65536x7x7x1, .f32⟩
  | 69 => ⟨S65536x7x7x1, .f32⟩
  | 70 => ⟨S65536x7x7x1, .f32⟩
  | 71 => ⟨S65536x7x7x1, .f32⟩
  | 72 => ⟨S65536x7x7x1, .f32⟩
  | 73 => ⟨S65536x7x7x1, .f32⟩
  | 74 => ⟨S65536x7x7x1, .f32⟩
  | 75 => ⟨S65536x7x7x1, .f32⟩
  | 76 => ⟨S65536x7x7x1, .f32⟩
  | 77 => ⟨S_, .f32⟩
  | 78 => ⟨S65536x7x7x1, .f32⟩
  | 79 => ⟨S65536x7x7x1, .f32⟩
  | 80 => ⟨S65536x7x7x1, .f32⟩
  | 81 => ⟨S65536x7x7x4, .f32⟩
  | 82 => ⟨S65536x7x7x4, .f32⟩
  | 83 => ⟨S65536x7x7x1, .f32⟩
  | 84 => ⟨S65536x7x7x1, .f32⟩
  | 85 => ⟨S_, .f32⟩
  | 86 => ⟨S65536x7x7x1, .f32⟩
  | 87 => ⟨S65536x7x7x1, .f32⟩
  | 88 => ⟨S65536x7x7x1, .f32⟩
  | 89 => ⟨S65536x7x7x1, .f32⟩
  | 90 => ⟨S65536x7x7x1, .f32⟩
  | 91 => ⟨S_, .f32⟩
  | 92 => ⟨S65536x7x7x1, .f32⟩
  | 93 => ⟨S65536x7x7x1, .f32⟩
  | 94 => ⟨S65536x7x7x1, .f32⟩
  | 95 => ⟨S65536x7x7x1, .f32⟩
  | 96 => ⟨S65536x7x7x1, .f32⟩
  | 97 => ⟨S_, .f32⟩
  | 98 => ⟨S65536x7x7x1, .f32⟩
  | 99 => ⟨S65536x7x7x1, .f32⟩
  | 100 => ⟨S65536x7x7x1, .f32⟩
  | 101 => ⟨S65536x7x7x1, .f32⟩
  | 102 => ⟨S65536x7x7x1, .f32⟩
  | 103 => ⟨S_, .f32⟩
  | 104 => ⟨S65536x7x7x1, .f32⟩
  | 105 => ⟨S65536x7x7x1, .f32⟩
  | 106 => ⟨S65536x7x7x1, .f32⟩
  | 107 => ⟨S65536x7x7x1, .f32⟩
  | 108 => ⟨S65536x7x7x1, .f32⟩
  | 109 => ⟨S_, .f32⟩
  | 110 => ⟨S65536x7x7x1, .f32⟩
  | 111 => ⟨S65536x7x7x1, .f32⟩
  | 112 => ⟨S65536x7x7x1, .f32⟩
  | 113 => ⟨S65536x7x7x1, .f32⟩
  | 114 => ⟨S65536x7x7x1, .f32⟩
  | 115 => ⟨S_, .f32⟩
  | 116 => ⟨S65536x7x7x1, .f32⟩
  | 117 => ⟨S65536x7x7x1, .f32⟩
  | 118 => ⟨S65536x7x7x1, .f32⟩
  | 119 => ⟨S65536x7x7x1, .f32⟩
  | 120 => ⟨S65536x7x7x1, .f32⟩
  | 121 => ⟨S_, .f32⟩
  | 122 => ⟨S65536x7x7x1, .f32⟩
  | 123 => ⟨S65536x7x7x1, .f32⟩
  | 124 => ⟨S65536x7x7x1, .f32⟩
  | 125 => ⟨S65536x7x7x1, .f32⟩
  | 126 => ⟨S65536x7x7x1, .f32⟩
  | 127 => ⟨S_, .f32⟩
  | _ => ⟨S65536x7x7x30, .f32⟩

abbrev hbmTy0_1 (i : Nat) : BufTy := match i % 128 with
  | 0 => ⟨S65536x7x7x1, .f32⟩
  | 1 => ⟨S65536x7x7x1, .f32⟩
  | 2 => ⟨S65536x7x7x1, .f32⟩
  | 3 => ⟨S65536x7x7x1, .f32⟩
  | 4 => ⟨S65536x7x7x1, .f32⟩
  | 5 => ⟨S65536x7x7x1, .f32⟩
  | 6 => ⟨S65536x7x7x1, .f32⟩
  | 7 => ⟨S65536x7x7x1, .f32⟩
  | 8 => ⟨S_, .i32⟩
  | 9 => ⟨S_, .f32⟩
  | 10 => ⟨S65536x7x7x1, .f32⟩
  | 11 => ⟨S65536x7x7x1, .f32⟩
  | 12 => ⟨S65536x7x7x1, .f32⟩
  | 13 => ⟨S_, .i32⟩
  | 14 => ⟨S_, .f32⟩
  | 15 => ⟨S65536x7x7x1, .f32⟩
  | 16 => ⟨S65536x7x7x1, .f32⟩
  | 17 => ⟨S65536x7x7x1, .f32⟩
  | 18 => ⟨S65536x7x7x1, .f32⟩
  | 19 => ⟨S65536x7x7x1, .f32⟩
  | 20 => ⟨S65536x7x7x1, .f32⟩
  | 21 => ⟨S65536x7x7x1, .f32⟩
  | 22 => ⟨S65536x7x7x1, .f32⟩
  | 23 => ⟨S65536x7x7x1, .f32⟩
  | 24 => ⟨S65536x7x7x1, .f32⟩
  | 25 => ⟨S65536x7x7x1, .f32⟩
  | 26 => ⟨S65536x7x7x1, .f32⟩
  | 27 => ⟨S65536x7x7x1, .f32⟩
  | 28 => ⟨S_, .f32⟩
  | 29 => ⟨S65536x7x7x1, .f32⟩
  | 30 => ⟨S65536x7x7x1, .f32⟩
  | 31 => ⟨S65536x7x7x1, .f32⟩
  | 32 => ⟨S65536x7x7x1, .i1⟩
  | 33 => ⟨S65536x7x7x1, .f32⟩
  | 34 => ⟨S65536x7x7x1, .f32⟩
  | 35 => ⟨S_, .f32⟩
  | 36 => ⟨S65536x7x7x1, .f32⟩
  | 37 => ⟨S65536x7x7x1, .f32⟩
  | 38 => ⟨S65536x7x7x1, .f32⟩
  | 39 => ⟨S65536x7x7x1, .f32⟩
  | 40 => ⟨S65536x7x7x1, .f32⟩
  | 41 => ⟨S65536x7x7x1, .f32⟩
  | 42 => ⟨S65536x7x7x1, .f32⟩
  | 43 => ⟨S65536x7x7x1, .f32⟩
  | 44 => ⟨S65536x7x7x1, .f32⟩
  | 45 => ⟨S65536x7x7x1, .f32⟩
  | 46 => ⟨S65536x7x7x1, .f32⟩
  | 47 => ⟨S65536x7x7x1, .f32⟩
  | 48 => ⟨S_, .f32⟩
  | 49 => ⟨S_, .f32⟩
  | 50 => ⟨S_, .f32⟩
  | 51 => ⟨S65536x7x7x1, .f32⟩
  | 52 => ⟨S65536x7x7x1, .f32⟩
  | 53 => ⟨S65536x7x7x1, .f32⟩
  | 54 => ⟨S65536x7x7x1, .f32⟩
  | 55 => ⟨S65536x7x7x1, .f32⟩
  | 56 => ⟨S65536x7x7x1, .f32⟩
  | 57 => ⟨S65536x7x7x1, .f32⟩
  | 58 => ⟨S65536x7x7x1, .f32⟩
  | 59 => ⟨S_, .f32⟩
  | 60 => ⟨S_, .f32⟩
  | 61 => ⟨S65536x7x7x1, .f32⟩
  | 62 => ⟨S65536x7x7x1, .f32⟩
  | 63 => ⟨S65536x7x7x1, .f32⟩
  | 64 => ⟨S65536x7x7x1, .f32⟩
  | 65 => ⟨S65536x7x7x1, .f32⟩
  | 66 => ⟨S65536x7x7x1, .f32⟩
  | 67 => ⟨S_, .f32⟩
  | 68 => ⟨S_, .f32⟩
  | 69 => ⟨S_, .f32⟩
  | 70 => ⟨S65536x7x7x20, .f32⟩
  | 71 => ⟨S65536x7x7x20, .f32⟩
  | 72 => ⟨S65536x7x7x20, .f32⟩
  | 73 => ⟨S65536x7x7x20, .f32⟩
  | 74 => ⟨S65536x7x7x20, .f32⟩
  | 75 => ⟨S65536x7x7x20, .f32⟩
  | 76 => ⟨S65536x7x7x20, .f32⟩
  | 77 => ⟨S65536x7x7x20, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | _ => ⟨S65536x7x7x30, .f32⟩

abbrev hbmTy (i : Nat) : BufTy := match i / 128 with
  | 0 => hbmTy0_0 i
  | 1 => hbmTy0_1 i
  | _ => ⟨S65536x7x7x30, .f32⟩

abbrev bufTy : (tb : Table) → Fin (tcTables nBuf tb) → BufTy
  | .hbm, ⟨i, _⟩ => hbmTy i
  | _, _ => ⟨S65536x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c : Ref sig .tc := ⟨.hbm, 57, rfl⟩
abbrev main_call0_v0 : Ref sig .tc := ⟨.hbm, 58, rfl⟩
abbrev main_call0_v1 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_call1_v0 : Ref sig .tc := ⟨.hbm, 63, rfl⟩
abbrev main_call1_v1 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_9 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_10 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_11 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_12 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_13 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_14 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_15 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_16 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_c_17 : Ref sig .tc := ⟨.hbm, 136, rfl⟩
abbrev main_call2_v0 : Ref sig .tc := ⟨.hbm, 137, rfl⟩
abbrev main_call2_v1 : Ref sig .tc := ⟨.hbm, 138, rfl⟩
abbrev main_v111 : Ref sig .tc := ⟨.hbm, 139, rfl⟩
abbrev main_v112 : Ref sig .tc := ⟨.hbm, 140, rfl⟩
abbrev main_c_18 : Ref sig .tc := ⟨.hbm, 141, rfl⟩
abbrev main_call3_v0 : Ref sig .tc := ⟨.hbm, 142, rfl⟩
abbrev main_call3_v1 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_19 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_cst_20 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_21 : Ref sig .tc := ⟨.hbm, 176, rfl⟩
abbrev main_v143 : Ref sig .tc := ⟨.hbm, 177, rfl⟩
abbrev main_cst_22 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_cst_23 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_cst_24 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_cst_25 : Ref sig .tc := ⟨.hbm, 206, rfl⟩
abbrev main_v169 : Ref sig .tc := ⟨.hbm, 207, rfl⟩
abbrev main_cst_26 : Ref sig .tc := ⟨.hbm, 208, rfl⟩
abbrev main_cst_27 : Ref sig .tc := ⟨.hbm, 209, rfl⟩
abbrev main_v170 : Ref sig .tc := ⟨.hbm, 210, rfl⟩
abbrev main_v171 : Ref sig .tc := ⟨.hbm, 211, rfl⟩
abbrev main_cst_28 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩

abbrev nD : Nat := 1
abbrev τ : Topo := Topo.v7x

variable {F : FTy → Type} [FloatOps F]

class Facts₀ : Prop where
  slices_S65536x7x7x30_S65536x7x7x4_0_0_0_21 : S65536x7x7x30.Slices ![0, 0, 0, 21] S65536x7x7x4
  slices_S65536x7x7x4_S65536x7x7x1_0_0_0_0 : S65536x7x7x4.Slices ![0, 0, 0, 0] S65536x7x7x1
  slices_S65536x7x7x4_S65536x7x7x1_0_0_0_2 : S65536x7x7x4.Slices ![0, 0, 0, 2] S65536x7x7x1
  bcast_S_S65536x7x7x1 : S_.BroadcastsInDim S65536x7x7x1 (![] : Fin 0 → Fin S65536x7x7x1.rank)
  slices_S65536x7x7x4_S65536x7x7x1_0_0_0_1 : S65536x7x7x4.Slices ![0, 0, 0, 1] S65536x7x7x1
  slices_S65536x7x7x4_S65536x7x7x1_0_0_0_3 : S65536x7x7x4.Slices ![0, 0, 0, 3] S65536x7x7x1
  slices_S65536x7x7x30_S65536x7x7x4_0_0_0_26 : S65536x7x7x30.Slices ![0, 0, 0, 26] S65536x7x7x4
  slices_S65536x7x7x30_S65536x7x7x1_0_0_0_20 : S65536x7x7x30.Slices ![0, 0, 0, 20] S65536x7x7x1
  slices_S65536x7x7x30_S65536x7x7x1_0_0_0_29 : S65536x7x7x30.Slices ![0, 0, 0, 29] S65536x7x7x1
  reducesTo_S65536x7x7x1_S_d0_1_2_3 : S65536x7x7x1.ReducesTo [0, 1, 2, 3] S_
  h_S_ : 0 < S_.numel
  slices_S65536x7x7x30_S65536x7x7x20_0_0_0_0 : S65536x7x7x30.Slices ![0, 0, 0, 0] S65536x7x7x20
  bcast_S65536x7x7x1_S65536x7x7x20_0_1_2_3 : S65536x7x7x1.BroadcastsInDim S65536x7x7x20 (![0, 1, 2, 3] : Fin 4 → Fin S65536x7x7x20.rank)
  reducesTo_S65536x7x7x20_S_d0_1_2_3 : S65536x7x7x20.ReducesTo [0, 1, 2, 3] S_

variable [Facts₀]

class Facts : Prop extends Facts₀ where

variable [Facts]
-- ==== Proof.TileStep.lean ====
/-
  What one grid point does to the running total.

  The kernel keeps a one-number accumulator in a scratch buffer that lives across grid points. At a point it
  loads its two input tiles (16384 cells of 30 numbers each), computes the tile's loss `s` from them, and
  stores `previous + s` back. At the first point of a core's run the accumulator is first set to zero; at the
  last it is also copied to the output block. `tileStep x0 x1 prev` is that stored value as a function of the
  tiles and of what the accumulator held; the three lemmas below read it off what each control case of the
  body leaves in the scratch buffer and, in the last case, in the output's staging buffer.
-/
import proofs.«102790_j13443247636702_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a point: the previous contents plus the loss of the point's two tiles, as the body
    computes it (the overlap ratios of both boxes with the target box, the picked confidence, the four sums). -/
def tileStep (x0 x1 : Vec F S16384x30 .f32) (prev : Vec F S1x1x1 .f32) : FVec F S1x1x1 .f32 :=
  k0_pay1
    (k0_pay30 (k0_pay4 x0) (k0_pay5 x1) (k0_pay25 (k0_pay5 x1)) (k0_pay26 (k0_pay4 x0)) (k0_pay27 (k0_pay4 x0))
      (k0_pay28 (k0_pay4 x0) (k0_pay8 x1)
        (k0_pay17 (k0_pay8 x1) (k0_pay9 x0) (k0_pay10 x0) (k0_pay11 x0) (k0_pay12 x0) (k0_pay13 x1) (k0_pay14 x1)
          (k0_pay15 x1) (k0_pay16 x1))
        (k0_pay18 (k0_pay7 x0)) (k0_pay19 (k0_pay7 x0)) (k0_pay20 (k0_pay7 x0)) (k0_pay21 (k0_pay7 x0))
        (k0_pay22 (k0_pay8 x1)) (k0_pay23 (k0_pay8 x1)))
      (k0_pay29 (k0_pay4 x0) (k0_pay8 x1)
        (k0_pay17 (k0_pay8 x1) (k0_pay9 x0) (k0_pay10 x0) (k0_pay11 x0) (k0_pay12 x0) (k0_pay13 x1) (k0_pay14 x1)
          (k0_pay15 x1) (k0_pay16 x1))
        (k0_pay18 (k0_pay7 x0)) (k0_pay19 (k0_pay7 x0)) (k0_pay20 (k0_pay7 x0)) (k0_pay21 (k0_pay7 x0))
        (k0_pay22 (k0_pay8 x1)) (k0_pay23 (k0_pay8 x1)))
      prev)

/-- A middle point of a run: the scratch buffer ends at the step over what it held. -/
theorem scratch_B (c : Dev nD) (i : grid0.Coords) (arg2 : Memref sig .tc .vmem S16384x30 .f32) (harg2 : arg2.IsWhole)
    (arg3 : Memref sig .tc .vmem S16384x30 .f32) (harg3 : arg3.IsWhole) (arg4 : Memref sig .tc .vmem S1x1x1 .f32)
    (harg4 : arg4.IsWhole) (arg5 : Memref sig .tc .vmem S1x1x1 .f32) (harg5 : arg5.IsWhole) (hc0 : ¬cond0_0 i)
    (hc1 : ¬cond0_1 i) (x0 : Vec F S16384x30 .f32) (x1 : Vec F S16384x30 .f32) (xs0 : Vec F S1x1x1 .f32) :
    sout0_B_0 c i arg2 harg2 arg3 harg3 arg4 harg4 arg5 harg5 hc0 hc1 x0 x1 xs0 = tileStep x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz3]
  simp only [View.readAt_eq_ld, harg2.read_unread, harg3.read_unread, harg5.read_unread,
    View.ld_unit_zero (S := S16384x30) hz2, View.ld_unit_zero (S := S1x1x1) hz3]
  rfl

/-- The last point of a run: the scratch buffer likewise, -/
theorem scratch_C (c : Dev nD) (i : grid0.Coords) (arg2 : Memref sig .tc .vmem S16384x30 .f32) (harg2 : arg2.IsWhole)
    (arg3 : Memref sig .tc .vmem S16384x30 .f32) (harg3 : arg3.IsWhole) (arg4 : Memref sig .tc .vmem S1x1x1 .f32)
    (harg4 : arg4.IsWhole) (arg5 : Memref sig .tc .vmem S1x1x1 .f32) (harg5 : arg5.IsWhole) (hc0 : ¬cond0_0 i)
    (hc1 : cond0_1 i) (x0 : Vec F S16384x30 .f32) (x1 : Vec F S16384x30 .f32) (xs0 : Vec F S1x1x1 .f32) :
    sout0_C_0 c i arg2 harg2 arg3 harg3 arg4 harg4 arg5 harg5 hc0 hc1 x0 x1 xs0 = tileStep x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S16384x30) hz2, View.ld_unit_zero (S := S1x1x1) hz3]
  rfl

/-- and the output's staging buffer receives a copy of it. -/
theorem out_C (c : Dev nD) (i : grid0.Coords) (arg2 : Memref sig .tc .vmem S16384x30 .f32) (harg2 : arg2.IsWhole)
    (arg3 : Memref sig .tc .vmem S16384x30 .f32) (harg3 : arg3.IsWhole) (arg4 : Memref sig .tc .vmem S1x1x1 .f32)
    (harg4 : arg4.IsWhole) (arg5 : Memref sig .tc .vmem S1x1x1 .f32) (harg5 : arg5.IsWhole) (hc0 : ¬cond0_0 i)
    (hc1 : cond0_1 i) (x0 : Vec F S16384x30 .f32) (x1 : Vec F S16384x30 .f32) (xs0 : Vec F S1x1x1 .f32) :
    out0_C_2 c i arg2 harg2 arg3 harg3 arg4 harg4 arg5 harg5 hc0 hc1 x0 x1 xs0 = k0_pay2 (tileStep x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3]
  simp only [View.readAt_eq_ld, harg2.read_unread, harg3.read_unread, harg5.read_unread,
    View.ld_unit_zero (S := S16384x30) hz2, View.ld_unit_zero (S := S1x1x1) hz3,
    View.readCov_unit_zero (S := S1x1x1) _ hz3]
  rfl

/-- The first point of a run: the accumulator is set to zero, then stepped. -/
theorem scratch_A (c : Dev nD) (i : grid0.Coords) (arg2 : Memref sig .tc .vmem S16384x30 .f32) (harg2 : arg2.IsWhole)
    (arg3 : Memref sig .tc .vmem S16384x30 .f32) (harg3 : arg3.IsWhole) (arg4 : Memref sig .tc .vmem S1x1x1 .f32)
    (harg4 : arg4.IsWhole) (arg5 : Memref sig .tc .vmem S1x1x1 .f32) (harg5 : arg5.IsWhole) (hc0 : cond0_0 i)
    (hc1 : ¬cond0_1 i) (x0 : Vec F S16384x30 .f32) (x1 : Vec F S16384x30 .f32) :
    sout0_A_0 c i arg2 harg2 arg3 harg3 arg4 harg4 arg5 harg5 hc0 hc1 x0 x1 = tileStep x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1x1) hz3]
  simp only [View.readAt_eq_ld, harg2.read_unread, harg3.read_unread,
    View.ld_unit_zero (S := S16384x30) hz2, View.readCov_unit_zero (S := S1x1x1) _ hz3]
  rfl

end Cert.KernelIdeal.Acc

end
-- ==== Proof.RunningTotal.lean ====
/-
  The accumulator over a core's run of grid points.

  The grid is 2 × 98: a core's run is 98 consecutive points. At the first point of a run the accumulator is set
  to zero and stepped; at every later point it is stepped from what the point before left. So after the point
  at offset `j` of run `q` it holds the fold of the step over the run's first `j + 1` tiles, whatever the
  instance; at the last point of the run that value is also what the output's staging buffer receives.
-/
import proofs.«102790_j13443247636702_1_alg».proof.Proof.TileStep
import Idealize.ShloMosaic.Lib.Pipeline.Value

set_option maxRecDepth 16384

noncomputable section

open Idealize.ShloMosaic Idealize.ShloMosaic.TcCoe Idealize.SL.Sem

namespace Cert.KernelIdeal.Acc

open Cert.KernelIdeal Cert.KernelIdeal.Gen

variable {F : FTy → Type} [FloatOps F]
variable (m : (ℓ : Loc nD τ sig) → Buf (Elt F) ℓ)

/-- The prediction tile and the target tile a point loads. -/
abbrev predTile (c : Dev nD) (t : Fin cfg0.N) : Vec F S16384x30 .f32 := iblk m c 0 t
abbrev targTile (c : Dev nD) (t : Fin cfg0.N) : Vec F S16384x30 .f32 := iblk m c 1 t

/-- The accumulator after the first point of a run. -/
theorem scratch_first (c : Dev nD) (t : Fin cfg0.N) (h0 : t.val % 98 = 0) (h1 : ¬t.val % 98 = 97) :
    (outsAt0 m c t.val t.isLt).2 = tileStep (predTile m c t) (targTile m c t) (k0_pay3 (F := F)) := by
  rw [outsAt0_A m c t h0 h1]
  dsimp only
  exact scratch_A (F := F) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- The accumulator after a middle point: stepped from what the point before left. -/
theorem scratch_mid (c : Dev nD) (t : Fin cfg0.N) (h0 : ¬t.val % 98 = 0) (h1 : ¬t.val % 98 = 97) :
    (outsAt0 m c t.val t.isLt).2
      = tileStep (predTile m c t) (targTile m c t)
          (outsAt0 m c (t.val - 1) (Nat.lt_of_le_of_lt (Nat.sub_le _ _) t.isLt)).2 := by
  rw [outsAt0_B m c t h0 h1]
  dsimp only
  exact scratch_B (F := F) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t)
    (iblk m c 1 t) (outsAt0 m c (t.val - 1) (Nat.lt_of_le_of_lt (Nat.sub_le _ _) t.isLt)).2

/-- The accumulator after the last point of a run: stepped likewise, -/
theorem scratch_last (c : Dev nD) (t : Fin cfg0.N) (h0 : ¬t.val % 98 = 0) (h1 : t.val % 98 = 97) :
    (outsAt0 m c t.val t.isLt).2
      = tileStep (predTile m c t) (targTile m c t)
          (outsAt0 m c (t.val - 1) (Nat.lt_of_le_of_lt (Nat.sub_le _ _) t.isLt)).2 := by
  rw [outsAt0_C m c t h0 h1]
  dsimp only
  exact scratch_C (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t)
    (iblk m c 1 t) (outsAt0 m c (t.val - 1) (Nat.lt_of_le_of_lt (Nat.sub_le _ _) t.isLt)).2

/-- and the output's staging buffer receives a copy of the stepped value. -/
theorem out_last (c : Dev nD) (t : Fin cfg0.N) (h0 : ¬t.val % 98 = 0) (h1 : t.val % 98 = 97) :
    (outsAt0 m c t.val t.isLt).1
      = k0_pay2 (tileStep (predTile m c t) (targTile m c t)
          (outsAt0 m c (t.val - 1) (Nat.lt_of_le_of_lt (Nat.sub_le _ _) t.isLt)).2) := by
  rw [outsAt0_C m c t h0 h1]
  dsimp only
  exact out_C (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t)
    (iblk m c 1 t) (outsAt0 m c (t.val - 1) (Nat.lt_of_le_of_lt (Nat.sub_le _ _) t.isLt)).2

/-- The step at point `n`, as a function of what the accumulator held. -/
def stepAt (c : Dev nD) (n : ℕ) (h : n < cfg0.N) (acc : Vec F S1x1x1 .f32) : Vec F S1x1x1 .f32 :=
  tileStep (predTile m c ⟨n, h⟩) (targTile m c ⟨n, h⟩) acc

/-- The accumulator after point `98 q + j` is the fold of the step over the run's points up to it, from zero. -/
theorem scratch_fold (c : Dev nD) (q j : ℕ) (hj : j < 98) (h : 98 * q + j < cfg0.N) :
    (outsAt0 m c (98 * q + j) h).2
      = Pipeline.accAt (fun n hn => stepAt m c n hn (k0_pay3 (F := F))) (fun n hn acc => stepAt m c n hn acc) (98 * q) j h := by
  have hN : cfg0.N = 196 := N_0
  refine Pipeline.eq_accAt (fun n hn => (outsAt0 m c n hn).2) 98 _ _ (fun n hn e => ?_) (fun n hn e => ?_) q j hj h
  · exact scratch_first m c ⟨n, hn⟩ e (by dsimp only; omega)
  · by_cases h1 : (n + 1) % 98 = 97
    · exact scratch_last m c ⟨n + 1, hn⟩ e h1
    · exact scratch_mid m c ⟨n + 1, hn⟩ e h1

end Cert.KernelIdeal.Acc

end
-- ==== Proof.CellTerms.lean ====
/-
  The detection loss one grid cell contributes, on the extended reals.

  A cell has 30 predicted numbers `p` and 30 target numbers `t`: twenty class scores (0..19), an objectness
  entry (20), a first box (21..24: centre x, centre y, width, height), and for the prediction a second
  confidence (29) with a second box (26..29 read as a box). Both programs compute, per cell,

    * the overlap ratio of each predicted box with the target box: corners are centre ∓ half the extent,
      the overlap is the product of the two clipped side overlaps, the ratio is overlap over
      (|area a| + |area b| - overlap + ε);
    * `pick`: 1 when the second box's ratio is strictly the greater, else 0;
    * the objectness term  (e·c - e·e)²  with e = t 20 and c the picked confidence (1-pick)·p20 + pick·p29;
    * the two no-object terms ((1-e)·p20 - (1-e)·e)² and ((1-e)·p29 - (1-e)·e)²;
    * twenty class terms (e·p k - e·t k)².

  One program halves an extent by multiplying with the word for one half, the other by dividing by the word
  for two: the same extended real (`div_two`). Squares are written as products, as both programs compute them.
-/
import Idealize.ShloMosaic.PureOps.Ideal
import Idealize.ShloMosaic.PureOps.Ideal.Laws

noncomputable section

namespace Cert.Yolo

open Idealize.ShloMosaic

/-- The word `0x3F000000` at the ideal instance. -/
def halfE : EReal := Ideal.ofBits .f32 0x3F000000#32
/-- The word `0x358637BD` (the float nearest 1e-6) at the ideal instance: its exact binary value, the same
    on both sides, never evaluated. -/
def epsE : EReal := Ideal.ofBits .f32 0x358637BD#32
/-- The word `0x3F800000` at the ideal instance. -/
def oneE : EReal := Ideal.ofBits .f32 0x3F800000#32

/-- That word denotes one half. -/
theorem halfE_eq : halfE = ((1 / 2 : ℝ) : EReal) := by
  unfold halfE
  simp [Ideal.ofBits, Ideal.ieee, -EReal.coe_mul]; norm_num

/-- The word `0x40000000` denotes two. -/
theorem ofBits_two : Ideal.ofBits .f32 0x40000000#32 = ((2 : ℝ) : EReal) := by
  simp [Ideal.ofBits, Ideal.ieee, -EReal.coe_mul]; norm_num

/-- Dividing by two is multiplying by one half, at the infinities too. -/
theorem div_two (x : EReal) : Ideal.div x (Ideal.ofBits .f32 0x40000000#32) = x * halfE := by
  rw [ofBits_two, Ideal.div_coe (by norm_num : (2 : ℝ) ≠ 0), halfE_eq]

theorem halfE_nonneg : 0 ≤ halfE := by
  rw [halfE_eq]; exact_mod_cast (by norm_num : (0 : ℝ) ≤ 1 / 2)

/-- The absolute value as the ideal instance reads it. -/
def absE (x : EReal) : EReal := max x (-x)

/-- Overlap of two boxes (centre, extent): the product of the clipped overlaps of their sides. -/
def overlap (a0 a1 a2 a3 b0 b1 b2 b3 : EReal) : EReal :=
  max (min (a0 + a2 * halfE) (b0 + b2 * halfE) - max (a0 - a2 * halfE) (b0 - b2 * halfE)) 0
    * max (min (a1 + a3 * halfE) (b1 + b3 * halfE) - max (a1 - a3 * halfE) (b1 - b3 * halfE)) 0

/-- The area of a box from its corners, in absolute value. -/
def areaE (a0 a1 a2 a3 : EReal) : EReal :=
  absE ((a0 + a2 * halfE - (a0 - a2 * halfE)) * (a1 + a3 * halfE - (a1 - a3 * halfE)))

/-- The overlap ratio of box `a` with box `b`. -/
def iou (a0 a1 a2 a3 b0 b1 b2 b3 : EReal) : EReal :=
  Ideal.div (overlap a0 a1 a2 a3 b0 b1 b2 b3)
    (areaE a0 a1 a2 a3 + areaE b0 b1 b2 b3 - overlap a0 a1 a2 a3 b0 b1 b2 b3 + epsE)

/-- 1 when `i2` is strictly greater than `i1`, else 0. -/
def pick (i2 i1 : EReal) : EReal := (((Ideal.cmp .ogt i2 i1).toNat : ℝ) : EReal)

/-- A cell's entry `n` (a literal below 30). -/
abbrev at30 (p : Fin 30 → EReal) (n : Nat) (h : n < 30 := by norm_num) : EReal := p ⟨n, h⟩

/-- Which box is responsible in a cell. -/
def pickCell (p t : Fin 30 → EReal) : EReal :=
  pick (iou (at30 p 26) (at30 p 27) (at30 p 28) (at30 p 29) (at30 t 21) (at30 t 22) (at30 t 23) (at30 t 24))
       (iou (at30 p 21) (at30 p 22) (at30 p 23) (at30 p 24) (at30 t 21) (at30 t 22) (at30 t 23) (at30 t 24))

/-- The objectness term of a cell. -/
def rowObj (p t : Fin 30 → EReal) : EReal :=
  (at30 t 20 * ((oneE - pickCell p t) * at30 p 20 + pickCell p t * at30 p 29) - at30 t 20 * at30 t 20)
    * (at30 t 20 * ((oneE - pickCell p t) * at30 p 20 + pickCell p t * at30 p 29) - at30 t 20 * at30 t 20)

/-- The first no-object term of a cell. -/
def rowNo1 (p t : Fin 30 → EReal) : EReal :=
  ((oneE - at30 t 20) * at30 p 20 - (oneE - at30 t 20) * at30 t 20)
    * ((oneE - at30 t 20) * at30 p 20 - (oneE - at30 t 20) * at30 t 20)

/-- The second no-object term of a cell. -/
def rowNo2 (p t : Fin 30 → EReal) : EReal :=
  ((oneE - at30 t 20) * at30 p 29 - (oneE - at30 t 20) * at30 t 20)
    * ((oneE - at30 t 20) * at30 p 29 - (oneE - at30 t 20) * at30 t 20)

/-- The class term of a cell at class `k`. -/
def rowCls (p t : Fin 30 → EReal) (k : Fin 20) : EReal :=
  (at30 t 20 * p ⟨k.val, by omega⟩ - at30 t 20 * t ⟨k.val, by omega⟩)
    * (at30 t 20 * p ⟨k.val, by omega⟩ - at30 t 20 * t ⟨k.val, by omega⟩)

/-- A product of an extended real with itself is not negative. -/
theorem mul_self_nonneg' (x : EReal) : 0 ≤ x * x := by
  induction x using EReal.rec with
  | bot => simp
  | top => simp
  | coe r => exact_mod_cast mul_self_nonneg r

theorem rowObj_nonneg (p t : Fin 30 → EReal) : 0 ≤ rowObj p t := mul_self_nonneg' _
theorem rowNo1_nonneg (p t : Fin 30 → EReal) : 0 ≤ rowNo1 p t := mul_self_nonneg' _
theorem rowNo2_nonneg (p t : Fin 30 → EReal) : 0 ≤ rowNo2 p t := mul_self_nonneg' _
theorem rowCls_nonneg (p t : Fin 30 → EReal) (k : Fin 20) : 0 ≤ rowCls p t k := mul_self_nonneg' _

end Cert.Yolo

end
-- ==== Proof.TileLoss.lean ====
/-
  The loss of one tile, and the accumulator step as an addition.

  A tile is 16384 cells; its loss is the sum over its cells of the objectness terms, plus one half of the sum
  of the two no-object sums, plus the sum over cells and classes of the class terms (`tileLoss`). The body
  computes each of the four sums lane-wise and then row-wise; a lane-then-row sum of a block is the plain sum
  over its rows (and lanes). Entry by entry the block arithmetic is the cell terms of the tile's rows: the
  box corners centre ∓ extent · ½, the two overlap ratios, the pick bit read as 0 or 1, the picked confidence,
  the squared differences. So at the ideal instance the step is `previous + tileLoss`.
-/
import proofs.«102790_j13443247636702_1_alg».proof.Proof.TileStep
import proofs.«102790_j13443247636702_1_alg».proof.Proof.CellTerms
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.Yolo

/-- Row `r` of a tile: its thirty numbers. -/
abbrev rowOf (x : Vec Ideal S16384x30 .f32) (r : Fin 16384) : Fin 30 → EReal := fun k => x (ix2 r k)

/-- The loss of one tile of 16384 cells. -/
def tileLoss (x0 x1 : Vec Ideal S16384x30 .f32) : EReal :=
  (∑ r : Fin 16384, rowObj (rowOf x0 r) (rowOf x1 r))
    + halfE * ((∑ r : Fin 16384, rowNo1 (rowOf x0 r) (rowOf x1 r)) + ∑ r : Fin 16384, rowNo2 (rowOf x0 r) (rowOf x1 r))
    + ∑ r : Fin 16384, ∑ k : Fin 20, rowCls (rowOf x0 r) (rowOf x1 r) k

/-- A one-column block summed over its lanes and then over its rows, read at its one entry. -/
theorem colsum1 (src : FVec Ideal S16384x1 .f32) :
    shapeCast S1x1 (multiReduction .add [0] S1 (shapeCast S16384x1
        (multiReduction .add [1] S16384 src 0x00000000#32 reduces_S16384x1_S16384 (.inl rfl) rfl) shapeCasts_S16384_S16384x1)
        0x00000000#32 reduces_S16384x1_S1 (.inl rfl) rfl) shapeCasts_S1_S1x1 (ix2 0 0)
      = ∑ r : Fin 16384, src (ix2 r 0) := by
  refine (shapeCast_apply _ shapeCasts_S1_S1x1 (ix2 0 0) (ix1 0)
    (by rw [Shape.rowMajor_val_one, Shape.rowMajor_val_two]; rfl)).trans ?_
  refine (Ideal.multiReduction_add_single _ 0x00000000#32 reduces_S16384x1_S1 (.inl rfl) rfl (ix1 0)).trans ?_
  refine Finset.sum_congr rfl fun r _ => ?_
  refine (shapeCast_apply _ shapeCasts_S16384_S16384x1 _ (ix1 r)
    (by rw [Shape.rowMajor_val_one, Shape.rowMajor_val_two]; show r.val = r.val * 1 + 0; omega)).trans ?_
  refine (Ideal.multiReduction_add_single src 0x00000000#32 reduces_S16384x1_S16384 (.inl rfl) rfl (ix1 r)).trans ?_
  show ∑ k : Fin 1, src (reduces_S16384x1_S16384.lift (ix1 r) k) = _
  rw [Fin.sum_univ_one]
  refine congrArg src (funext fun a => ?_)
  match a with
  | ⟨0, _⟩ => rfl
  | ⟨1, _⟩ => rfl

/-- A twenty-column block summed over its lanes and then over its rows, read at its one entry. -/
theorem colsum20 (src : FVec Ideal S16384x20 .f32) :
    shapeCast S1x1 (multiReduction .add [0] S1 (shapeCast S16384x1
        (multiReduction .add [1] S16384 src 0x00000000#32 reduces_S16384x20_S16384 (.inl rfl) rfl) shapeCasts_S16384_S16384x1)
        0x00000000#32 reduces_S16384x1_S1 (.inl rfl) rfl) shapeCasts_S1_S1x1 (ix2 0 0)
      = ∑ r : Fin 16384, ∑ k : Fin 20, src (ix2 r k) := by
  refine (shapeCast_apply _ shapeCasts_S1_S1x1 (ix2 0 0) (ix1 0)
    (by rw [Shape.rowMajor_val_one, Shape.rowMajor_val_two]; rfl)).trans ?_
  refine (Ideal.multiReduction_add_single _ 0x00000000#32 reduces_S16384x1_S1 (.inl rfl) rfl (ix1 0)).trans ?_
  refine Finset.sum_congr rfl fun r _ => ?_
  refine (shapeCast_apply _ shapeCasts_S16384_S16384x1 _ (ix1 r)
    (by rw [Shape.rowMajor_val_one, Shape.rowMajor_val_two]; show r.val = r.val * 1 + 0; omega)).trans ?_
  refine (Ideal.multiReduction_add_single src 0x00000000#32 reduces_S16384x20_S16384 (.inl rfl) rfl (ix1 r)).trans ?_
  show ∑ k : Fin 20, src (reduces_S16384x20_S16384.lift (ix1 r) k) = _
  refine Finset.sum_congr rfl fun k _ => ?_
  refine congrArg src (funext fun a => ?_)
  match a with
  | ⟨0, _⟩ => rfl
  | ⟨1, _⟩ => rfl

/-- A one-column block broadcast along twenty lanes reads, at (r, k), its entry at (r, 0). -/
theorem bcastCol (v : FVec Ideal S16384x1 .f32) (r : Fin 16384) (k : Fin 20) :
    broadcastTo S16384x20 v broadcasts_S16384x1_S16384x20 (ix2 r k) = v (ix2 r 0) :=
  broadcastTo_apply v broadcasts_S16384x1_S16384x20 (ix2 r k) (ix2 r 0) (fun a => by
    match a with
    | ⟨0, _⟩ => show r.val = if (16384 : Nat) = 1 then 0 else r.val; rw [if_neg (by decide)]
    | ⟨1, _⟩ => show 0 = if (1 : Nat) = 1 then 0 else k.val; rw [if_pos rfl])

/-- A compare's bit widened to a word and read as a signed integer is the bit's value. -/
theorem pickBit (b : BitVec 1) : FloatOps.sitofp (F := Ideal) .f32 (b.setWidth 32) = ((b.toNat : ℝ) : EReal) := by
  by_cases h : b = 1#1
  · subst h; rfl
  · obtain rfl := ValueIdx.eq_zero_of_ne_one h; rfl

/-- The step at the ideal instance: the previous contents plus the tile's loss. -/
theorem tileStep_apply (x0 x1 : Vec Ideal S16384x30 .f32) (prev : Vec Ideal S1x1x1 .f32) (y : S1x1x1.Idx) :
    tileStep x0 x1 prev y = prev y + tileLoss x0 x1 := by
  unfold tileStep k0_pay1 k0_pay30
  dsimp only
  refine (shapeCast_apply _ shapeCasts_S1x1_S1x1x1 y (ix2 0 0) (by
    have h0 := (y 0).isLt; have h1 := (y 1).isLt; have h2 := (y 2).isLt
    rw [Shape.rowMajor_val_two, Shape.rowMajor_val_three]
    show 0 * 1 + 0 = ((y 0).val * 1 + (y 1).val) * 1 + (y 2).val
    change (y 0).val < 1 at h0; change (y 1).val < 1 at h1; change (y 2).val < 1 at h2
    omega)).trans ?_
  rw [addf_apply, addf_apply, addf_apply, mulf_apply, addf_apply, broadcast_apply, colsum1, colsum1, colsum1, colsum20]
  unfold tileLoss
  refine congrArg₂ (· + ·) (shapeCast_apply prev shapeCasts_S1x1x1_S1x1 (ix2 0 0) y (by
    have h0 := (y 0).isLt; have h1 := (y 1).isLt; have h2 := (y 2).isLt
    rw [Shape.rowMajor_val_two, Shape.rowMajor_val_three]
    show ((y 0).val * 1 + (y 1).val) * 1 + (y 2).val = 0 * 1 + 0
    change (y 0).val < 1 at h0; change (y 1).val < 1 at h1; change (y 2).val < 1 at h2
    omega)) ?_
  refine congrArg₂ (· + ·) (congrArg₂ (· + ·) (Finset.sum_congr rfl fun r _ => ?obj)
    (congrArg₂ (· * ·) rfl (congrArg₂ (· + ·) (Finset.sum_congr rfl fun r _ => ?n1) (Finset.sum_congr rfl fun r _ => ?n2))))
    (Finset.sum_congr rfl fun r _ => Finset.sum_congr rfl fun k _ => ?cls)
  case n1 =>
    simp only [mulf_apply, subf_apply, addf_apply, broadcast_apply, k0_pay4, k0_pay5, k0_pay25, k0_pay26, k0_pay27,
      shapeCast_self, slice2_axis1_eq]
    rfl
  case n2 =>
    simp only [mulf_apply, subf_apply, addf_apply, broadcast_apply, k0_pay4, k0_pay5, k0_pay25, k0_pay26, k0_pay27,
      shapeCast_self, slice2_axis1_eq]
    rfl
  case cls =>
    simp only [mulf_apply, subf_apply, addf_apply, broadcast_apply, k0_pay4, k0_pay5, k0_pay25, k0_pay26, k0_pay27,
      shapeCast_self, slice2_axis1_eq, bcastCol, Nat.zero_add]
    rfl
  case obj =>
    simp only [mulf_apply, subf_apply, addf_apply, divf_apply, maximumf_apply, minimumf_apply, broadcast_apply,
      cmpf_apply, extui_apply, sitofp_apply, absf, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, shapeCast_self, slice2_axis1_eq,
      Ideal.ofBits_def, Ideal.ofBits_zero_f32, Ideal.cmpf_def, Ideal.absf_def, pickBit]
    rfl

end Cert.KernelIdeal.Acc
end
-- ==== Proof.CoreTotal.lean ====
/-
  What the output array holds after the region, at the ideal instance.

  The step adds a tile's loss, so after the point at offset `j` of a core's run the accumulator holds
  0 + the sum of the losses of the run's first j + 1 tiles. The last point of the run (offset 97) copies that
  to the output block of its core. The grid's two runs write the two entries of the 2 × 1 × 1 output array:
  entry q ends at 0 + Σ_{s < 98} (loss of the tiles of point 98 q + s).
-/
import proofs.«102790_j13443247636702_1_alg».proof.Proof.RunningTotal
import proofs.«102790_j13443247636702_1_alg».proof.Proof.TileLoss

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Yolo

variable (m : (ℓ : Loc nD τ sig) → Buf (Elt Ideal) ℓ)

/-- The one entry of a 1 × 1 × 1 block sits at the row-major position of the one entry of a 1 × 1 block. -/
theorem pos_one (y : S1x1x1.Idx) :
    (S1x1.rowMajor (ix2 (0 : Fin 1) (0 : Fin 1))).val = (S1x1x1.rowMajor y).val := by
  have h0 := (y 0).isLt; have h1 := (y 1).isLt; have h2 := (y 2).isLt
  rw [Shape.rowMajor_val_two, Shape.rowMajor_val_three]
  show 0 * 1 + 0 = ((y 0).val * 1 + (y 1).val) * 1 + (y 2).val
  change (y 0).val < 1 at h0; change (y 1).val < 1 at h1; change (y 2).val < 1 at h2
  omega

/-- The reset stores zero. -/
theorem zero_apply (i : S1x1x1.Idx) : (k0_pay3 (F := Ideal)) i = 0 := by
  unfold k0_pay3
  refine (shapeCast_apply _ shapeCasts_S1x1_S1x1x1 i (ix2 0 0) (pos_one i)).trans ?_
  exact Ideal.ofBits_zero_f32

/-- The loss of the two tiles grid point `n` loads (zero past the grid: never read). -/
def lossAt (c : Dev nD) (n : ℕ) : EReal :=
  if h : n < cfg0.N then tileLoss (predTile m c ⟨n, h⟩) (targTile m c ⟨n, h⟩) else 0

/-- After the point at offset `j` of run `q` the accumulator holds the run's first `j + 1` tile losses, summed. -/
theorem scratch_sum (c : Dev nD) (q j : ℕ) (hj : j < 98) (h : 98 * q + j < cfg0.N) (y : S1x1x1.Idx) :
    (outsAt0 m c (98 * q + j) h).2 y = 0 + ∑ s ∈ Finset.range (j + 1), lossAt m c (98 * q + s) := by
  rw [scratch_fold m c q j hj h]
  refine Pipeline.accAt_add_apply (ι := S1x1x1.Idx) (β := EReal) _ _ (fun _ => 0) (fun n _ => lossAt m c n)
    (98 * q) 97 (fun hb i => ?_) (fun n hn acc i _ _ => ?_) j (by omega) h y
  · show stepAt m c (98 * q) hb (k0_pay3 (F := Ideal)) i = 0 + lossAt m c (98 * q)
    unfold stepAt lossAt
    rw [tileStep_apply, zero_apply, dif_pos hb]
  · show stepAt m c n hn acc i = acc i + lossAt m c n
    unfold stepAt lossAt
    rw [tileStep_apply, dif_pos hn]

/-- The copy to the output goes through two re-layings of one number: nothing changes. -/
theorem copy_id (v : Vec Ideal S1x1x1 .f32) : k0_pay2 v = v := by
  unfold k0_pay2
  dsimp only
  exact shapeCast_shapeCast v shapeCasts_S1x1x1_S1x1 shapeCasts_S1x1_S1x1x1

/-- A core's total: zero plus the losses of the 98 points of run `q`. -/
def coreSum (c : Dev nD) (q : ℕ) : EReal := 0 + ∑ s ∈ Finset.range 98, lossAt m c (98 * q + s)

/-- At the last point of a run the output's staging buffer holds the core's total. -/
theorem out_sum (c : Dev nD) (n : ℕ) (hn : n < cfg0.N) (h97 : n % 98 = 97) (y : S1x1x1.Idx) :
    (outsAt0 m c n hn).1 y = coreSum m c (n / 98) := by
  obtain ⟨q, rfl⟩ : ∃ q, n = 98 * q + 97 := ⟨n / 98, by omega⟩
  have e1 := out_last m c ⟨98 * q + 97, hn⟩ (by dsimp only; omega) (by dsimp only; omega)
  have e2 := scratch_last m c ⟨98 * q + 97, hn⟩ (by dsimp only; omega) (by dsimp only; omega)
  rw [show (98 * q + 97) / 98 = q by omega]
  have e3 : (outsAt0 m c (98 * q + 97) hn).1 = (outsAt0 m c (98 * q + 97) hn).2 := by
    refine e1.trans ?_
    rw [copy_id]
    exact e2.symm
  rw [e3]
  exact scratch_sum m c q 97 (by omega) hn y

/-- The output array after the region: entry `q` is core `q`'s total. -/
def outArr (c : Dev nD) : S2x1x1.Idx → EReal := fun i => coreSum m c (i 0).val

/-- The output window's block index at point `t`: the run's number on the first axis. -/
theorem idx_out : ∀ t : Fin cfg0.N, win0_2.index t (0 : Fin 3) = t.val / 98 ∧ win0_2.index t (1 : Fin 3) = 0
    ∧ win0_2.index t (2 : Fin 3) = 0 :=
  (by decide +kernel : ∀ t : Fin grid0.N, win0_2.index t (0 : Fin 3) = t.val / 98 ∧ win0_2.index t (1 : Fin 3) = 0
    ∧ win0_2.index t (2 : Fin 3) = 0)

/-- What a flushing point writes back is its block of `outArr`. -/
theorem flushed_out (c : Dev nD) (t : Fin cfg0.N) (hf : (cfg0.win 2).flush t = true) :
    (dats m 0 c).flushed 2 t = ((cfg0.win 2).blk t).view.read (Elt Ideal) (outArr m c) := by
  have h97 : t.val % 98 = 97 := (flush0_2 t).mp hf
  obtain ⟨e0, -, -⟩ := idx_out t
  show (cfg0.win 2).cut (grid0.coords t) ((dats m 0 c).after 2 t) = _
  rw [after0_2]
  funext y
  have hy : (y 0).val < 1 := (y 0).isLt
  show (outsAt0 m c t.val t.isLt).1 y = coreSum m c (win0_2.index t (0 : Fin 3) * 1 + 1 * (y 0).val)
  rw [out_sum m c t.val t.isLt h97 y, e0]
  congr 1
  omega

/-- Every entry of the output array is in the block some flushing point writes back. -/
theorem cover_out (c : Dev nD) (i : ((cfg0.win 2).arr.view.loc (c.tc : Thread nD τ)).2.ty.Idx) :
    ∃ t : Fin cfg0.N, (cfg0.win 2).flush t = true ∧ i ∈ ((cfg0.win 2).blk t).view.set := by
  have hN : grid0.N = 196 := N_0
  have h0 : (i 0).val < 2 := (i 0).isLt
  have h1 : (i 1).val < 1 := (i 1).isLt
  have h2 : (i 2).val < 1 := (i 2).isLt
  obtain ⟨t, ht⟩ : ∃ t : Fin cfg0.N, t.val = 98 * (i 0).val + 97 :=
    ⟨⟨98 * (i 0).val + 97, by show 98 * (i 0).val + 97 < grid0.N; omega⟩, rfl⟩
  obtain ⟨e0, e1, e2⟩ := idx_out t
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 1 ≤ (i 2).val ∧ (i 2).val < win0_2.index t (2 : Fin 3) * 1 + 1
    rw [e2]; omega

/-- The output array ends at the two cores' totals. -/
theorem final_out (c : Dev nD) : (dats m 0 c).arrAt 2 cfg0.N = outArr m c :=
  (dats m 0 c).arrAt_eq_of_cover 2 (outArr m c) (flushed_out m c) (cover_out c)

end Cert.KernelIdeal.Acc

end
-- ==== Proof.Cells.lean ====
/-
  Cells of the argument arrays by number.

  An argument is a 65536 × 7 × 7 × 30 array: 3211264 grid cells of 30 numbers. One program reads a cell at
  its three grid coordinates (n, i, j); the other first re-lays the array as 3211264 rows of 30 (a reshape:
  same row-major position) and reads row ρ. With ρ = (n·7 + i)·7 + j these are the same thirty numbers.
  `cellAt X ρ` is cell ρ read off the four-axis array directly, by ρ / 49, ρ / 7 % 7, ρ % 7.
-/
import Idealize.ShloMosaic.Lib.ValueIdx
import Idealize.ShloMosaic.Lib.Pipeline.Value

noncomputable section

namespace Cert.Yolo

open Idealize.ShloMosaic Idealize.ShloMosaic.ValueIdx

/-- The arguments' shape. -/
abbrev SArr : Shape := ⟨4, ![65536, 7, 7, 30]⟩
/-- The same numbers as rows of 30. -/
abbrev SRows : Shape := ⟨2, ![3211264, 30]⟩

/-- Cell `ρ` of a four-axis array (zero past the last cell: never read). -/
def cellAt (X : SArr.Idx → EReal) (ρ : ℕ) : Fin 30 → EReal := fun k =>
  if h : ρ < 3211264 then
    X (ix4 (⟨ρ / 49, by omega⟩ : Fin 65536) (⟨ρ / 7 % 7, by omega⟩ : Fin 7) (⟨ρ % 7, by omega⟩ : Fin 7) k)
  else 0

/-- The cell at grid coordinates (n, i, j) is cell (n·7 + i)·7 + j. -/
theorem cellAt_flat (X : SArr.Idx → EReal) (n : Fin 65536) (i j : Fin 7) (k : Fin 30) :
    cellAt X ((n.val * 7 + i.val) * 7 + j.val) k = X (ix4 n i j k) := by
  have hn := n.isLt; have hi := i.isLt; have hj := j.isLt
  unfold cellAt
  rw [dif_pos (by omega)]
  refine congrArg X ?_
  have h1 : ((n.val * 7 + i.val) * 7 + j.val) / 49 = n.val := by omega
  have h2 : ((n.val * 7 + i.val) * 7 + j.val) / 7 % 7 = i.val := by omega
  have h3 : ((n.val * 7 + i.val) * 7 + j.val) % 7 = j.val := by omega
  funext a
  match a with
  | ⟨0, _⟩ => exact Fin.ext h1
  | ⟨1, _⟩ => exact Fin.ext h2
  | ⟨2, _⟩ => exact Fin.ext h3
  | ⟨3, _⟩ => rfl

/-- Row `ρ` of the re-laid array is cell `ρ`. -/
theorem cellAt_rows (X : SArr.Idx → EReal) (h : SArr.ShapeCasts SRows) (ρ : Fin 3211264) (k : Fin 30) :
    shapeCast SRows X h (ix2 ρ k) = cellAt X ρ.val k := by
  have hρ := ρ.isLt; have hk := k.isLt
  unfold cellAt
  rw [dif_pos hρ]
  refine shapeCast_apply X h (ix2 ρ k) _ ?_
  rw [Shape.rowMajor_val_four, Shape.rowMajor_val_two]
  show ((ρ.val / 49 * 7 + ρ.val / 7 % 7) * 7 + ρ.val % 7) * 30 + k.val = ρ.val * 30 + k.val
  omega

end Cert.Yolo

end
-- ==== Proof.TileCells.lean ====
/-
  A tile's rows are cells of the argument arrays.

  Before the region each argument is re-laid as 3211264 rows of 30 (same row-major positions). At grid point
  `t` each input window reads rows 16384 t … 16384 t + 16383 of its re-laid array, so row `r` of the tile is cell
  number 16384 t + r of the argument. Hence the loss of a point's two tiles is the loss of those 16384 cells.
-/
import proofs.«102790_j13443247636702_1_alg».proof.Proof.CoreTotal
import proofs.«102790_j13443247636702_1_alg».proof.Proof.Cells
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.StableHlo

namespace Cert.KernelIdeal.Acc

open Cert.KernelIdeal Cert.KernelIdeal.Gen Cert.Yolo

variable (m : (ℓ : Loc nD τ sig) → Buf (Elt Ideal) ℓ)

/-- The region finds the first re-laid array at the reshape of the first argument, -/
theorem relaid0 (c : Dev nD) :
    (V m c main_v0 : S3211264x30.Idx → EReal)
      = shapeCast S3211264x30 (m ((c.tc : Thread nD τ).loc main_arg0)) shapeCasts_S65536x7x7x30_S3211264x30 := by
  show StableHlo.after hostOps0 (fun b => m (c, b)) (Proc.devRef .tc main_v0) = _
  after_results
  rfl

/-- and the second at the reshape of the second. -/
theorem relaid1 (c : Dev nD) :
    (V m c main_v1 : S3211264x30.Idx → EReal)
      = shapeCast S3211264x30 (m ((c.tc : Thread nD τ).loc main_arg1)) shapeCasts_S65536x7x7x30_S3211264x30 := by
  show StableHlo.after hostOps0 (fun b => m (c, b)) (Proc.devRef .tc main_v1) = _
  after_results
  rfl

/-- Both input windows' block index at point `t`: block `t` on the rows, block 0 on the lanes. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Row `r` of the prediction tile of point `t` is cell 16384 t + r of the first argument. -/
theorem pred_row (c : Dev nD) (t : Fin cfg0.N) (r : Fin 16384) :
    rowOf (predTile m c t) r = cellAt (m ((c.tc : Thread nD τ).loc main_arg0)) (16384 * t.val + r.val) := by
  have hN : grid0.N = 196 := N_0
  have ht : t.val < grid0.N := t.isLt
  have hr := r.isLt
  obtain ⟨e0, e1, -, -⟩ := idx_in t
  funext k
  have hk := k.isLt
  show iblk m c 0 t (ix2 r k) = _
  unfold iblk
  rw [View.read_apply]
  show V m c main_v0 (((cfg0.win 0).blk t).view.emb (ix2 r k)) = _
  rw [relaid0 m c]
  have hemb : ((cfg0.win 0).blk t).view.emb (ix2 r k)
      = ix2 (⟨16384 * t.val + r.val, by omega⟩ : Fin 3211264) k := by
    funext a
    apply Fin.ext
    match a with
    | ⟨0, _⟩ => show win0_0.index t (0 : Fin 2) * 16384 + 1 * r.val = 16384 * t.val + r.val; rw [e0]; omega
    | ⟨1, _⟩ => show win0_0.index t (1 : Fin 2) * 30 + 1 * k.val = k.val; rw [e1]; omega
  rw [hemb]
  exact cellAt_rows _ shapeCasts_S65536x7x7x30_S3211264x30 ⟨16384 * t.val + r.val, by omega⟩ k

/-- Row `r` of the target tile of point `t` is cell 16384 t + r of the second argument. -/
theorem targ_row (c : Dev nD) (t : Fin cfg0.N) (r : Fin 16384) :
    rowOf (targTile m c t) r = cellAt (m ((c.tc : Thread nD τ).loc main_arg1)) (16384 * t.val + r.val) := by
  have hN : grid0.N = 196 := N_0
  have ht : t.val < grid0.N := t.isLt
  have hr := r.isLt
  obtain ⟨-, -, e0, e1⟩ := idx_in t
  funext k
  have hk := k.isLt
  show iblk m c 1 t (ix2 r k) = _
  unfold iblk
  rw [View.read_apply]
  show V m c main_v1 (((cfg0.win 1).blk t).view.emb (ix2 r k)) = _
  rw [relaid1 m c]
  have hemb : ((cfg0.win 1).blk t).view.emb (ix2 r k)
      = ix2 (⟨16384 * t.val + r.val, by omega⟩ : Fin 3211264) k := by
    funext a
    apply Fin.ext
    match a with
    | ⟨0, _⟩ => show win0_1.index t (0 : Fin 2) * 16384 + 1 * r.val = 16384 * t.val + r.val; rw [e0]; omega
    | ⟨1, _⟩ => show win0_1.index t (1 : Fin 2) * 30 + 1 * k.val = k.val; rw [e1]; omega
  rw [hemb]
  exact cellAt_rows _ shapeCasts_S65536x7x7x30_S3211264x30 ⟨16384 * t.val + r.val, by omega⟩ k

/-- The loss of the 16384 cells from number 16384 n on. -/
def chunkLoss (X0 X1 : SArr.Idx → EReal) (n : ℕ) : EReal :=
  (∑ r ∈ Finset.range 16384, rowObj (cellAt X0 (16384 * n + r)) (cellAt X1 (16384 * n + r)))
    + halfE * ((∑ r ∈ Finset.range 16384, rowNo1 (cellAt X0 (16384 * n + r)) (cellAt X1 (16384 * n + r)))
      + ∑ r ∈ Finset.range 16384, rowNo2 (cellAt X0 (16384 * n + r)) (cellAt X1 (16384 * n + r)))
    + ∑ r ∈ Finset.range 16384, ∑ k : Fin 20, rowCls (cellAt X0 (16384 * n + r)) (cellAt X1 (16384 * n + r)) k

/-- The loss of a grid point's tiles is the loss of its 16384 cells. -/
theorem lossAt_eq (c : Dev nD) (n : ℕ) (hn : n < cfg0.N) :
    lossAt m c n
      = chunkLoss (m ((c.tc : Thread nD τ).loc main_arg0)) (m ((c.tc : Thread nD τ).loc main_arg1)) n := by
  unfold lossAt chunkLoss tileLoss
  rw [dif_pos hn]
  simp only [Finset.sum_range, pred_row m c ⟨n, hn⟩, targ_row m c ⟨n, hn⟩]

end Cert.KernelIdeal.Acc

end
-- ==== Proof.LossOf.lean ====
/-
  The whole loss, as one function of the two argument arrays.

  Over the 3211264 cells, numbered in row-major order: the sum of the objectness terms, plus one half of the
  sum of the two no-object sums, plus the sum of all class terms. Both programs end at this number: one sums
  tile by tile and core by core, the other in four whole-array sums.
-/
import proofs.«102790_j13443247636702_1_alg».proof.Proof.CellTerms
import proofs.«102790_j13443247636702_1_alg».proof.Proof.Cells

noncomputable section

namespace Cert.Yolo

open Finset Idealize.ShloMosaic

/-- The objectness, no-object and class sums over all cells. -/
def sumObj (X0 X1 : SArr.Idx → EReal) : EReal := ∑ ρ ∈ range 3211264, rowObj (cellAt X0 ρ) (cellAt X1 ρ)
def sumNo1 (X0 X1 : SArr.Idx → EReal) : EReal := ∑ ρ ∈ range 3211264, rowNo1 (cellAt X0 ρ) (cellAt X1 ρ)
def sumNo2 (X0 X1 : SArr.Idx → EReal) : EReal := ∑ ρ ∈ range 3211264, rowNo2 (cellAt X0 ρ) (cellAt X1 ρ)
def sumCls (X0 X1 : SArr.Idx → EReal) : EReal :=
  ∑ ρ ∈ range 3211264, ∑ k : Fin 20, rowCls (cellAt X0 ρ) (cellAt X1 ρ) k

/-- The loss of a prediction array `X0` against a target array `X1`. -/
def lossOf (X0 X1 : SArr.Idx → EReal) : EReal :=
  sumObj X0 X1 + halfE * (sumNo1 X0 X1 + sumNo2 X0 X1) + sumCls X0 X1

end Cert.Yolo

end
-- ==== Proof.SumLaws.lean ====
/-
  Finite sums on the extended reals, as the two programs' totals need them.

  * a sum over the first `M * N` naturals is the sum, block by block, of `M` runs of `N`;
  * a sum over a shape's indices of rank 3 or 4 is the iterated sum over its coordinates;
  * a factor that is a nonnegative real distributes over any finite sum of extended reals (the product with
    a finite nonnegative factor distributes over a sum whatever the summands are, infinities included);
  * hence a sum of terms  a + h·(b + c) + d  is  Σa + h·(Σb + Σc) + Σd.
-/
import Mathlib.Data.EReal.Operations
import Mathlib.Algebra.BigOperators.Fin
import Idealize.ShloMosaic.Lib.ValueIdx

noncomputable section

namespace Cert.Yolo

open Finset Idealize.ShloMosaic Idealize.ShloMosaic.ValueIdx

/-- The first `M * N` naturals, run by run: `N * q + r` for `q < M`, `r < N`. -/
theorem sum_range_mul {β : Type*} [AddCommMonoid β] (f : ℕ → β) (M N : ℕ) :
    ∑ ρ ∈ range (M * N), f ρ = ∑ q ∈ range M, ∑ r ∈ range N, f (N * q + r) := by
  induction M with
  | zero => simp
  | succ M ih => rw [Nat.succ_mul, sum_range_add, ih, sum_range_succ, Nat.mul_comm M N]

/-- A rank-3 index set is the product of its coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A finite nonnegative factor distributes over any finite sum of extended reals. -/
theorem mul_sum_of_real {ι : Type*} (h : EReal) (h0 : 0 ≤ h) (ht : h ≠ ⊤) (s : Finset ι) (f : ι → EReal) :
    h * ∑ i ∈ s, f i = ∑ i ∈ s, h * f i := by
  classical
  induction s using Finset.induction_on with
  | empty => simp
  | insert a s ha ih =>
    rw [sum_insert ha, sum_insert ha, EReal.left_distrib_of_nonneg_of_ne_top h0 ht, ih]

/-- A sum of terms `a + h·(b + c) + d` with such a factor `h`. -/
theorem sum_weighted {ι : Type*} (h : EReal) (h0 : 0 ≤ h) (ht : h ≠ ⊤) (s : Finset ι) (A B C D : ι → EReal) :
    ∑ i ∈ s, (A i + h * (B i + C i) + D i)
      = ∑ i ∈ s, A i + h * (∑ i ∈ s, B i + ∑ i ∈ s, C i) + ∑ i ∈ s, D i := by
  have e : ∑ i ∈ s, B i + ∑ i ∈ s, C i = ∑ i ∈ s, (B i + C i) := sum_add_distrib.symm
  rw [e, mul_sum_of_real h h0 ht, sum_add_distrib, sum_add_distrib]

end Cert.Yolo

end
-- ==== Proof.KernelLoss.lean ====
/-
  The kernel's result is the loss.

  After the region the output array holds the two cores' totals; the program's last line adds them (a host sum
  over the 2 × 1 × 1 array from zero). A core's total is zero plus its 98 points' losses, a point's loss is the
  loss of its 16384 cells, and that loss is a sum of objectness terms, one half of two no-object sums, and a
  sum of class terms. Summing over points the one-half factor comes out of the sum (a finite nonnegative factor
  distributes over any finite sum of extended reals), and 2 runs of 98 points of 16384 cells are the 3211264
  cells in order. So the result is `lossOf` of the two arguments.
-/
import proofs.«102790_j13443247636702_1_alg».proof.Proof.TileCells
import proofs.«102790_j13443247636702_1_alg».proof.Proof.LossOf
import proofs.«102790_j13443247636702_1_alg».proof.Proof.SumLaws

set_option maxRecDepth 16384

noncomputable section

open Idealize.ShloMosaic Idealize.ShloMosaic.TcCoe Idealize.SL.Sem Idealize.ShloMosaic.ValueIdx
open Idealize.ShloMosaic.StableHlo
open Idealize.ShloMosaic.Pipeline (Dat)

namespace Cert.KernelIdeal.Acc

open Cert.KernelIdeal Cert.KernelIdeal.Gen Cert.Yolo

variable (m : (ℓ : Loc nD τ sig) → Buf (Elt Ideal) ℓ) (ρ : Dev nD → PrngReg)

theorem halfE_ne_top : halfE ≠ ⊤ := by rw [halfE_eq]; exact EReal.coe_ne_top _

/-- The losses of all 196 points, in order, are the loss of all cells. -/
theorem chunks_total (X0 X1 : SArr.Idx → EReal) :
    ∑ n ∈ Finset.range 196, chunkLoss X0 X1 n = lossOf X0 X1 := by
  unfold chunkLoss lossOf sumObj sumNo1 sumNo2 sumCls
  refine (sum_weighted halfE halfE_nonneg halfE_ne_top (Finset.range 196)
    (fun n => ∑ r ∈ Finset.range 16384, rowObj (cellAt X0 (16384 * n + r)) (cellAt X1 (16384 * n + r)))
    (fun n => ∑ r ∈ Finset.range 16384, rowNo1 (cellAt X0 (16384 * n + r)) (cellAt X1 (16384 * n + r)))
    (fun n => ∑ r ∈ Finset.range 16384, rowNo2 (cellAt X0 (16384 * n + r)) (cellAt X1 (16384 * n + r)))
    (fun n => ∑ r ∈ Finset.range 16384, ∑ k : Fin 20, rowCls (cellAt X0 (16384 * n + r)) (cellAt X1 (16384 * n + r)) k)).trans ?_
  refine congrArg₂ (· + ·) (congrArg₂ (· + ·) ?_ (congrArg₂ (· * ·) rfl (congrArg₂ (· + ·) ?_ ?_))) ?_
  · exact (sum_range_mul (fun ρ => rowObj (cellAt X0 ρ) (cellAt X1 ρ)) 196 16384).symm
  · exact (sum_range_mul (fun ρ => rowNo1 (cellAt X0 ρ) (cellAt X1 ρ)) 196 16384).symm
  · exact (sum_range_mul (fun ρ => rowNo2 (cellAt X0 ρ) (cellAt X1 ρ)) 196 16384).symm
  · exact (sum_range_mul (fun ρ => ∑ k : Fin 20, rowCls (cellAt X0 ρ) (cellAt X1 ρ) k) 196 16384).symm

/-- The two cores' totals add up to the loss. -/
theorem cores_total (c : Dev nD) :
    (0 : EReal) + ∑ q : Fin 2, coreSum m c q.val
      = lossOf (m ((c.tc : Thread nD τ).loc main_arg0)) (m ((c.tc : Thread nD τ).loc main_arg1)) := by
  have hN : cfg0.N = 196 := N_0
  have e1 : ∑ q : Fin 2, coreSum m c q.val
      = ∑ q ∈ Finset.range 2, ∑ s ∈ Finset.range 98, lossAt m c (98 * q + s) := by
    rw [Finset.sum_range]
    refine Finset.sum_congr rfl fun q _ => ?_
    unfold coreSum
    rw [zero_add]
  have e2 : ∑ q ∈ Finset.range 2, ∑ s ∈ Finset.range 98, lossAt m c (98 * q + s)
      = ∑ n ∈ Finset.range 196, lossAt m c n :=
    (sum_range_mul (fun n => lossAt m c n) 2 98).symm
  have e3 : ∑ n ∈ Finset.range 196, lossAt m c n
      = ∑ n ∈ Finset.range 196, chunkLoss (m ((c.tc : Thread nD τ).loc main_arg0)) (m ((c.tc : Thread nD τ).loc main_arg1)) n :=
    Finset.sum_congr rfl fun n hn => lossAt_eq m c n (by rw [hN]; exact Finset.mem_range.mp hn)
  rw [zero_add, e1, e2, e3]
  exact chunks_total _ _

/-- The result buffer after the last line: the loss, at its one index. -/
theorem kernel_value (c : Dev nD) :
    Pipeline.afterTail₀ cfgs (dats m) 0 (V0 m) [hostOps1] c main_v3
      = fun _ => lossOf (m ((c.tc : Thread nD τ).loc main_arg0)) (m ((c.tc : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = outArr m c :=
    (Pipeline.withArrays_arr spec0 launch0.win.arr_inj c (V0 m c) (fun w => (dats m 0 c).arrAt w cfg0.N) 2).trans
      (final_out m c)
  rw [hw]
  funext i
  simp only [Host.reduceAdd, Ideal.hostReduceAdd_def]
  refine (Ideal.hostReduceAdd_total reducesTo_S2x1x1_S_d0_1_2 (fun b => b.elim0) (outArr m c) _ i).trans ?_
  rw [sum_idx3]
  simp only [Fin.sum_univ_one]
  show Ideal.ofBits .f32 0x00000000#32 + ∑ q : Fin 2, coreSum m c q.val = _
  rw [Ideal.ofBits_zero_f32]
  exact cores_total m c

/-- The kernel's run, read: the result buffer at the loss of the arguments, the arguments unchanged. -/
theorem kernel_run : θ_run defs (onTc (τ := τ) (main (F := Ideal))) ⟨m, fun _ => 0, ρ⟩ fun r => ∀ c : Dev nD,
      r.2.mem ((c.tc : Thread nD τ).loc main_v3)
          = (fun _ => lossOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Acc

end
-- ==== Proof.LibSeqLine.lean ====
/-
  Lines of host operations: three general facts for running a host program whose operations are listed piece by piece
  (one piece per window of the program, or per call of a local function).

  `chain_map_seq`: pieces run one after the other are their concatenation run as one line. `after_append`: the
  contents after two lines in a row are the second line's applied to what the first leaves. `forall_flatten`: a
  property every operation of every piece has, every operation of the concatenation has.
-/
import Idealize.ShloMosaic.Lib.StableHlo.Run
import Idealize.ShloMosaic.Lib.Pipeline.Regions

noncomputable section

namespace Cert.LibSeqLine

open Idealize.ShloMosaic Idealize.ShloMosaic.TcCoe Idealize.SL.Sem Idealize.ShloMosaic.StableHlo

section General

variable {nD : Nat} {τ : Topo} {sig : RefSig} {Val : EltTy → Type} {Λ : Labels}

/-- Lines run one after the other are their concatenation run as one line. -/
theorem chain_map_seq : ∀ L : List (List (HloOp τ sig Val)),
    Pipeline.chain (L.map fun l => (seq l : Prog (TpuEff nD τ sig Val Λ .tc) PUnit)) = seq L.flatten
  | [] => rfl
  | l :: L => by rw [List.map_cons, Pipeline.chain_cons, List.flatten_cons, seq_append, chain_map_seq L]

/-- The contents after two lines in a row: the second applied to what the first leaves. -/
theorem after_append : ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

/-- A property of every operation of every line holds of every operation of their concatenation. -/
theorem forall_flatten {α : Type} {p : α → Prop} (L : List (List α)) (h : ∀ l ∈ L, l.Forall p) : ∀ x ∈ L.flatten, p x := by
  intro x hx
  obtain ⟨l, hl, hxl⟩ := List.mem_flatten.mp hx
  exact (List.forall_iff_forall_mem.mp (h l hl)) x hxl

end General

end Cert.LibSeqLine

end
-- ==== Proof.RefProgram.lean ====
/-
  The reference program as a line of host operations, window by window, and its run.

  The reference's @main is 214 host operations, printed in four windows. Each window is the line of its
  operations (a call of the clipping function standing as that function's three operations: the integer
  bound converted, broadcast, and the maximum taken); the windows one after the other are one line. A line of
  host operations that touches tensor buffers only and allocates nothing runs to completion from any memory,
  and every buffer ends at what the line's operations, applied in order to the launch contents, leave in it.
-/
import proofs.«102790_j13443247636702_1_alg».proof.Proof.Gen.ReferenceIdeal
import proofs.«102790_j13443247636702_1_alg».proof.Proof.LibSeqLine
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem
open Idealize.ShloMosaic.StableHlo

variable {F : FTy → Type} [FloatOps F]

/-- Window 0: box corners of the first pair and its two clipped side overlaps. -/
abbrev ops0 : List (HloOp τ sig (Elt F)) :=
  [ unary main_arg0 main_v0 ((extractStridedSlice S65536x7x7x4 ![0, 0, 0, 21] · slices_S65536x7x7x30_S65536x7x7x4_0_0_0_21) : (⟨S65536x7x7x30, .f32⟩ : BufTy).Contents (Elt F) → (⟨S65536x7x7x4, .f32⟩ : BufTy).Contents (Elt F)),
    unary main_arg1 main_v1 ((extractStridedSlice S65536x7x7x4 ![0, 0, 0, 21] · slices_S65536x7x7x30_S65536x7x7x4_0_0_0_21) : (⟨S65536x7x7x30, .f32⟩ : BufTy).Contents (Elt F) → (⟨S65536x7x7x4, .f32⟩ : BufTy).Contents (Elt F)),
    unary main_v0 main_v2 ((extractStridedSlice S65536x7x7x1 ![0, 0, 0, 0] · slices_S65536x7x7x4_S65536x7x7x1_0_0_0_0) : (⟨S65536x7x7x4, .f32⟩ : BufTy).Contents (Elt F) → (⟨S65536x7x7x1, .f32⟩ : BufTy).Contents (Elt F)),
    unary main_v0 main_v3 ((extractStridedSlice S65536x7x7x1 ![0, 0, 0, 2] · slices_S65536x7x7x4_S65536x7x7x1_0_0_0_2) : (⟨S65536x7x7x4, .f32⟩ : BufTy).Contents (Elt F) → (⟨S65536x7x7x1, .f32⟩ : BufTy).Contents (Elt F)),
    nullary main_cst (constant S_ .f32 0x40000000#32),
    unary main_cst main_v4 (broadcastInDim S65536x7x7x1 ![] bcast_S_S65536x7x7x1 : (⟨S_, .f32⟩ : BufTy).Contents (Elt F) → (⟨S65536x7x7x1, .f32⟩ : BufTy).Contents (Elt F)),
    binary main_v3 main_v4 main_v5 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v2 main_v5 main_v6 (subf : (⟨S65536x7x7x1, .f32⟩ : BufTy).Contents (Elt F) → (⟨S65536x7x7x1, .f32⟩ : BufTy).Contents (Elt F) → (⟨S65536x7x7x1, .f32⟩ : BufTy).Contents (Elt F)),
    unary main_v0 main_v7 ((extractStridedSlice S65536x7x7x1 ![0, 0, 0, 1] · slices_S65536x7x7x4_S65536x7x7x1_0_0_0_1) : (⟨S65536x7x7x4, .f32⟩ : BufTy).Contents (Elt F) → (⟨S65536x7x7x1, .f32⟩ : BufTy).Contents (Elt F)),
    unary main_v0 main_v8 ((extractStridedSlice S65536x7x7x1 ![0, 0, 0, 3] · slices_S65536x7x7x4_S65536x7x7x1_0_0_0_3) : (⟨S65536x7x7x4, .f32⟩ : BufTy).Contents (Elt F) → (⟨S65536x7x7x1, .f32⟩ : BufTy).Contents (Elt F)),
    nullary main_cst_0 (constant S_ .f32 0x40000000#32),
    unary main_cst_0 main_v9 (broadcastInDim S65536x7x7x1 ![] bcast_S_S65536x7x7x1 : (⟨S_, .f32⟩ : BufTy).Contents (Elt F) → (⟨S65536x7x7x1, .f32⟩ : BufTy).Contents (Elt F)),
    binary main_v8 main_v9 main_v10 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v7 main_v10 main_v11 (subf : (⟨S65536x7x7x1, .f32⟩ : BufTy).Contents (Elt F) → (⟨S65536x7x7x1, .f32⟩ : BufTy).Contents (Elt F) → (⟨S65536x7x7x1, .f32⟩ : BufTy).Contents (Elt F)),
    unary main_v0 main_v12 ((extractStridedSlice S65536x7x7x1 ![0, 0, 0, 0] · slices_S65536x7x7x4_S65536x7x7x1_0_0_0_0) : (⟨S65536x7x7x4, .f32⟩ : BufTy).Contents (Elt F) → (⟨S65536x7x7x1, .f32⟩ : BufTy).Contents (Elt F)),
    unary main_v0 main_v13 ((extractStridedSlice S65536x7x7x1 ![0, 0, 0, 2] · slices_S65536x7x7x4_S65536x7x7x1_0_0_0_2) : (⟨S65536x7x7x4, .f32⟩ : BufTy).Contents (Elt F) → (⟨S65536x7x7x1, .f32⟩ : BufTy).Contents (Elt F)),
    nullary main_cst_1 (constant S_ .f32 0x40000000#32),
    unary main_cst_1 main_v14 (broadcastInDim S65536x7x7x1 ![] bcast_S_S65536x7x7x1 : (⟨S_, .f32⟩ : BufTy).Contents (Elt F) → (⟨S65536x7x7x1, .f32⟩ : BufTy).Contents (Elt F)),
    binary main_v13 main_v14 main_v15 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v12 main_v15 main_v16 (addf : (⟨S65536x7x7x1, .f32⟩ : BufTy).Contents (Elt F) → (⟨S65536x7x7x1, .f32⟩ : BufTy).Contents (Elt F) → (⟨S65536x7x7x1, .f32⟩ : BufTy).Contents (Elt F)),
    unary main_v0 main_v17 ((extractStridedSlice S65536x7x7x1 ![0, 0, 0, 1] · slices_S65536x7x7x4_S65536x7x7x1_0_0_0_1) : (⟨S65536x7x7x4, .f32⟩ : BufTy).Contents (Elt F) → (⟨S65536x7x7x1, .f32⟩ : BufTy).Contents (Elt F)),
    unary main_v0 main_v18 ((extractStridedSlice S65536x7x7x1 ![0, 0, 0, 3] · slices_S65536x7x7x4_S65536x7x7x1_0_0_0_3) : (⟨S65536x7x7x4, .f32⟩ : BufTy).Contents (Elt F) → (⟨S65536x7x7x1, .f32⟩ : BufTy).Contents (Elt F)),
    nullary main_cst_2 (constant S_ .f32 0x40000000#32),
    unary main_cst_2 main_v19 (broadcastInDim S65536x7x7x1 ![] bcast_S_S65536x7x7x1 : (⟨S_, .f32⟩ : BufTy).Contents (Elt F) → (⟨S65536x7x7x1, .f32⟩ : BufTy).Contents (Elt F)),
    binary main_v18 main_v19 main_v20 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v17 main_v20 main_v21 (addf : (⟨S65536x7x7x1, .f32⟩ : BufTy).Contents (Elt F) → (⟨S65536x7x7x1, .f32⟩ : BufTy).Contents (Elt F) → (⟨S65536x7x7x1, .f32⟩ : BufTy).Contents (Elt F)),
    unary main_v1 main_v22 ((extractStridedSlice S65536x7x7x1 ![0, 0, 0, 0] · slices_S65536x7x7x4_S65536x7x7x1_0_0_0_0) : (⟨S65536x7x7x4, .f32⟩ : BufTy).Contents (Elt F) → (⟨S65536x7x7x1, .f32⟩ : BufTy).Contents (Elt F)),
    unary main_v1 main_v23 ((extractStridedSlice S65536x7x7x1 ![0, 0, 0, 2] · slices_S65536x7x7x4_S65536x7x7x1_0_0_0_2) : (⟨S65536x7x7x4, .f32⟩ : BufTy).Contents (Elt F) → (⟨S65536x7x7x1, .f32⟩ : BufTy).Contents (Elt F)),
    nullary main_cst_3 (constant S_ .f32 0x40000000#32),
    unary main_cst_3 main_v24 (broadcastInDim S65536x7x7x1 ![] bcast_S_S65536x7x7x1 : (⟨S_, .f32⟩ : BufTy).Contents (Elt F) → (⟨S65536x7x7x1, .f32⟩ : BufTy).Contents (Elt F)),
    binary main_v23 main_v24 main_v25 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v22 main_v25 main_v26 (subf : (⟨S65536x7x7x1, .f32⟩ : BufTy).Contents (Elt F) → (⟨S65536x7x7x1, .f32⟩ : BufTy).Contents (Elt F) → (⟨S65536x7x7x1, .f32⟩ : BufTy).Contents (Elt F)),
    unary main_v1 main_v27 ((extractStridedSlice S65536x7x7x1 ![0, 0, 0, 1] · slices_S65536x7x7x4_S65536x7x7x1_0_0_0_1) : (⟨S65536x7x7x4, .f32⟩ : BufTy).Contents (Elt F) → (⟨S65536x7x7x1, .f32⟩ : BufTy).Contents (Elt F)),
    unary main_v1 main_v28 ((extractStridedSlice S65536x7x7x1 ![0, 0, 0, 3] · slices_S65536x7x7x4_S65536x7x7x1_0_0_0_3) : (⟨S65536x7x7x4, .f32⟩ : BufTy).Contents (Elt F) → (⟨S65536x7x7x1, .f32⟩ : BufTy).Contents (Elt F)),
    nullary main_cst_4 (constant S_ .f32 0x40000000#32),
    unary main_cst_4 main_v29 (broadcastInDim S65536x7x7x1 ![] bcast_S_S65536x7x7x1 : (⟨S_, .f32⟩ : BufTy).Contents (Elt F) → (⟨S65536x7x7x1, .f32⟩ : BufTy).Contents (Elt F)),
    binary main_v28 main_v29 main_v30 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v27 main_v30 main_v31 (subf : (⟨S65536x7x7x1, .f32⟩ : BufTy).Contents (Elt F) → (⟨S65536x7x7x1, .f32⟩ : BufTy).Contents (Elt F) → (⟨S65536x7x7x1, .f32⟩ : BufTy).Contents (Elt F)),
    unary main_v1 main_v32 ((extractStridedSlice S65536x7x7x1 ![0, 0, 0, 0] · slices_S65536x7x7x4_S65536x7x7x1_0_0_0_0) : (⟨S65536x7x7x4, .f32⟩ : BufTy).Contents (Elt F) → (⟨S65536x7x7x1, .f32⟩ : BufTy).Contents (Elt F)),
    unary main_v1 main_v33 ((extractStridedSlice S65536x7x7x1 ![0, 0, 0, 2] · slices_S65536x7x7x4_S65536x7x7x1_0_0_0_2) : (⟨S65536x7x7x4, .f32⟩ : BufTy).Contents (Elt F) → (⟨S65536x7x7x1, .f32⟩ : BufTy).Contents (Elt F)),
    nullary main_cst_5 (constant S_ .f32 0x40000000#32),
    unary main_cst_5 main_v34 (broadcastInDim S65536x7x7x1 ![] bcast_S_S65536x7x7x1 : (⟨S_, .f32⟩ : BufTy).Contents (Elt F) → (⟨S65536x7x7x1, .f32⟩ : BufTy).Contents (Elt F)),
    binary main_v33 main_v34 main_v35 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v32 main_v35 main_v36 (addf : (⟨S65536x7x7x1, .f32⟩ : BufTy).Contents (Elt F) → (⟨S65536x7x7x1, .f32⟩ : BufTy).Contents (Elt F) → (⟨S65536x7x7x1, .f32⟩ : BufTy).Contents (Elt F)),
    unary main_v1 main_v37 ((extractStridedSlice S65536x7x7x1 ![0, 0, 0, 1] · slices_S65536x7x7x4_S65536x7x7x1_0_0_0_1) : (⟨S65536x7x7x4, .f32⟩ : BufTy).Contents (Elt F) → (⟨S65536x7x7x1, .f32⟩ : BufTy).Contents (Elt F)),
    unary main_v1 main_v38 ((extractStridedSlice S65536x7x7x1 ![0, 0, 0, 3] · slices_S65536x7x7x4_S65536x7x7x1_0_0_0_3) : (⟨S65536x7x7x4, .f32⟩ : BufTy).Contents (Elt F) → (⟨S65536x7x7x1, .f32⟩ : BufTy).Contents (Elt F)),
    nullary main_cst_6 (constant S_ .f32 0x40000000#32),
    unary main_cst_6 main_v39 (broadcastInDim S65536x7x7x1 ![] bcast_S_S65536x7x7x1 : (⟨S_, .f32⟩ : BufTy).Contents (Elt F) → (⟨S65536x7x7x1, .f32⟩ : BufTy).Contents (Elt F)),
    binary main_v38 main_v39 main_v40 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v37 main_v40 main_v41 (addf : (⟨S65536x7x7x1, .f32⟩ : BufTy).Contents (Elt F) → (⟨S65536x7x7x1, .f32⟩ : BufTy).Contents (Elt F) → (⟨S65536x7x7x1, .f32⟩ : BufTy).Contents (Elt F)),
    binary main_v6 main_v26 main_v42 (maximumf : (⟨S65536x7x7x1, .f32⟩ : BufTy).Contents (Elt F) → (⟨S65536x7x7x1, .f32⟩ : BufTy).Contents (Elt F) → (⟨S65536x7x7x1, .f32⟩ : BufTy).Contents (Elt F)),
    binary main_v11 main_v31 main_v43 (maximumf : (⟨S65536x7x7x1, .f32⟩ : BufTy).Contents (Elt F) → (⟨S65536x7x7x1, .f32⟩ : BufTy).Contents (Elt F) → (⟨S65536x7x7x1, .f32⟩ : BufTy).Contents (Elt F)),
    binary main_v16 main_v36 main_v44 (minimumf : (⟨S65536x7x7x1, .f32⟩ : BufTy).Contents (Elt F) → (⟨S65536x7x7x1, .f32⟩ : BufTy).Contents (Elt F) → (⟨S65536x7x7x1, .f32⟩ : BufTy).Contents (Elt F)),
    binary main_v21 main_v41 main_v45 (minimumf : (⟨S65536x7x7x1, .f32⟩ : BufTy).Contents (Elt F) → (⟨S65536x7x7x1, .f32⟩ : BufTy).Contents (Elt F) → (⟨S65536x7x7x1, .f32⟩ : BufTy).Contents (Elt F)),
    binary main_v44 main_v42 main_v46 (subf : (⟨S65536x7x7x1, .f32⟩ : BufTy).Contents (Elt F) → (⟨S65536x7x7x1, .f32⟩ : BufTy).Contents (Elt F) → (⟨S65536x7x7x1, .f32⟩ : BufTy).Contents (Elt F)),
    nullary main_c (constantI S_ 32 0#32),
    TRef.unary (TRef.of (T := ⟨S_, .i32⟩) main_c) main_call0.v0 (sitofp (F := F) .f32),
    TRef.unary main_call0.v0 main_call0.v1 (broadcastInDim S65536x7x7x1 ![] bcast_S_S65536x7x7x1),
    TRef.binary main_call0.v1 (TRef.of (T := ⟨S65536x7x7x1, .f32⟩) main_v46) main_call0.v2 maximumf,
    binary main_v45 main_v43 main_v48 (subf : (⟨S65536x7x7x1, .f32⟩ : BufTy).Contents (Elt F) → (⟨S65536x7x7x1, .f32⟩ : BufTy).Contents (Elt F) → (⟨S65536x7x7x1, .f32⟩ : BufTy).Contents (Elt F)),
    nullary main_c_7 (constantI S_ 32 0#32),
    TRef.unary (TRef.of (T := ⟨S_, .i32⟩) main_c_7) main_call1.v0 (sitofp (F := F) .f32),
    TRef.unary main_call1.v0 main_call1.v1 (broadcastInDim S65536x7x7x1 ![] bcast_S_S65536x7x7x1),
    TRef.binary main_call1.v1 (TRef.of (T := ⟨S65536x7x7x1, .f32⟩) main_v48) main_call1.v2 maximumf ]

/-- Window 1: the first overlap ratio, and the corners of the second pair. -/
abbrev ops1 : List (HloOp τ sig (Elt F)) :=
  [ binary main_v47 main_v49 main_v50 (mulf : (⟨S65536x7x7x1, .f32⟩ : BufTy).Contents (Elt F) → (⟨S65536x7x7x1, .f32⟩ : BufTy).Contents (Elt F) → (⟨S65536x7x7x1, .f32⟩ : BufTy).Contents (Elt F)),
    binary main_v16 main_v6 main_v51 (subf : (⟨S65536x7x7x1, .f32⟩ : BufTy).Contents (Elt F) → (⟨S65536x7x7x1, .f32⟩ : BufTy).Contents (Elt F) → (⟨S65536x7x7x1, .f32⟩ : BufTy).Contents (Elt F)),
    binary main_v21 main_v11 main_v52 (subf : (⟨S65536x7x7x1, .f32⟩ : BufTy).Contents (Elt F) → (⟨S65536x7x7x1, .f32⟩ : BufTy).Contents (Elt F) → (⟨S65536x7x7x1, .f32⟩ : BufTy).Contents (Elt F)),
    binary main_v51 main_v52 main_v53 (mulf : (⟨S65536x7x7x1, .f32⟩ : BufTy).Contents (Elt F) → (⟨S65536x7x7x1, .f32⟩ : BufTy).Contents (Elt F) → (⟨S65536x7x7x1, .f32⟩ : BufTy).Contents (Elt F)),
    unary main_v53 main_v54 (Host.absf : (⟨S65536x7x7x1, .f32⟩ : BufTy).Contents (Elt F) → (⟨S65536x7x7x1, .f32⟩ : BufTy).Contents (Elt F)),
    binary main_v36 main_v26 main_v55 (subf : (⟨S65536x7x7x1, .f32⟩ : BufTy).Contents (Elt F) → (⟨S65536x7x7x1, .f32⟩ : BufTy).Contents (Elt F) → (⟨S65536x7x7x1, .f32⟩ : BufTy).Contents (Elt F)),
    binary main_v41 main_v31 main_v56 (subf : (⟨S65536x7x7x1, .f32⟩ : BufTy).Contents (Elt F) → (⟨S65536x7x7x1, .f32⟩ : BufTy).Contents (Elt F) → (⟨S65536x7x7x1, .f32⟩ : BufTy).Contents (Elt F)),
    binary main_v55 main_v56 main_v57 (mulf : (⟨S65536x7x7x1, .f32⟩ : BufTy).Contents (Elt F) → (⟨S65536x7x7x1, .f32⟩ : BufTy).Contents (Elt F) → (⟨S65536x7x7x1, .f32⟩ : BufTy).Contents (Elt F)),
    unary main_v57 main_v58 (Host.absf : (⟨S65536x7x7x1, .f32⟩ : BufTy).Contents (Elt F) → (⟨S65536x7x7x1, .f32⟩ : BufTy).Contents (Elt F)),
    binary main_v54 main_v58 main_v59 (addf : (⟨S65536x7x7x1, .f32⟩ : BufTy).Contents (Elt F) → (⟨S65536x7x7x1, .f32⟩ : BufTy).Contents (Elt F) → (⟨S65536x7x7x1, .f32⟩ : BufTy).Contents (Elt F)),
    binary main_v59 main_v50 main_v60 (subf : (⟨S65536x7x7x1, .f32⟩ : BufTy).Contents (Elt F) → (⟨S65536x7x7x1, .f32⟩ : BufTy).Contents (Elt F) → (⟨S65536x7x7x1, .f32⟩ : BufTy).Contents (Elt F)),
    nullary main_cst_8 (constant S_ .f32 0x358637BD#32),
    unary main_cst_8 main_v61 (broadcastInDim S65536x7x7x1 ![] bcast_S_S65536x7x7x1 : (⟨S_, .f32⟩ : BufTy).Contents (Elt F) → (⟨S65536x7x7x1, .f32⟩ : BufTy).Contents (Elt F)),
    binary main_v60 main_v61 main_v62 (addf : (⟨S65536x7x7x1, .f32⟩ : BufTy).Contents (Elt F) → (⟨S65536x7x7x1, .f32⟩ : BufTy).Contents (Elt F) → (⟨S65536x7x7x1, .f32⟩ : BufTy).Contents (Elt F)),
    binary main_v50 main_v62 main_v63 (Host.divf : (⟨S65536x7x7x1, .f32⟩ : BufTy).Contents (Elt F) → (⟨S65536x7x7x1, .f32⟩ : BufTy).Contents (Elt F) → (⟨S65536x7x7x1, .f32⟩ : BufTy).Contents (Elt F)),
    unary main_arg0 main_v64 ((extractStridedSlice S65536x7x7x4 ![0, 0, 0, 26] · slices_S65536x7x7x30_S65536x7x7x4_0_0_0_26) : (⟨S65536x7x7x30, .f32⟩ : BufTy).Contents (Elt F) → (⟨S65536x7x7x4, .f32⟩ : BufTy).Contents (Elt F)),
    unary main_arg1 main_v65 ((extractStridedSlice S65536x7x7x4 ![0, 0, 0, 21] · slices_S65536x7x7x30_S65536x7x7x4_0_0_0_21) : (⟨S65536x7x7x30, .f32⟩ : BufTy).Contents (Elt F) → (⟨S65536x7x7x4, .f32⟩ : BufTy).Contents (Elt F)),
    unary main_v64 main_v66 ((extractStridedSlice S65536x7x7x1 ![0, 0, 0, 0] · slices_S65536x7x7x4_S65536x7x7x1_0_0_0_0) : (⟨S65536x7x7x4, .f32⟩ : BufTy).Contents (Elt F) → (⟨S65536x7x7x1, .f32⟩ : BufTy).Contents (Elt F)),
    unary main_v64 main_v67 ((extractStridedSlice S65536x7x7x1 ![0, 0, 0, 2] · slices_S65536x7x7x4_S65536x7x7x1_0_0_0_2) : (⟨S65536x7x7x4, .f32⟩ : BufTy).Contents (Elt F) → (⟨S65536x7x7x1, .f32⟩ : BufTy).Contents (Elt F)),
    nullary main_cst_9 (constant S_ .f32 0x40000000#32),
    unary main_cst_9 main_v68 (broadcastInDim S65536x7x7x1 ![] bcast_S_S65536x7x7x1 : (⟨S_, .f32⟩ : BufTy).Contents (Elt F) → (⟨S65536x7x7x1, .f32⟩ : BufTy).Contents (Elt F)),
    binary main_v67 main_v68 main_v69 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v66 main_v69 main_v70 (subf : (⟨S65536x7x7x1, .f32⟩ : BufTy).Contents (Elt F) → (⟨S65536x7x7x1, .f32⟩ : BufTy).Contents (Elt F) → (⟨S65536x7x7x1, .f32⟩ : BufTy).Contents (Elt F)),
    unary main_v64 main_v71 ((extractStridedSlice S65536x7x7x1 ![0, 0, 0, 1] · slices_S65536x7x7x4_S65536x7x7x1_0_0_0_1) : (⟨S65536x7x7x4, .f32⟩ : BufTy).Contents (Elt F) → (⟨S65536x7x7x1, .f32⟩ : BufTy).Contents (Elt F)),
    unary main_v64 main_v72 ((extractStridedSlice S65536x7x7x1 ![0, 0, 0, 3] · slices_S65536x7x7x4_S65536x7x7x1_0_0_0_3) : (⟨S65536x7x7x4, .f32⟩ : BufTy).Contents (Elt F) → (⟨S65536x7x7x1, .f32⟩ : BufTy).Contents (Elt F)),
    nullary main_cst_10 (constant S_ .f32 0x40000000#32),
    unary main_cst_10 main_v73 (broadcastInDim S65536x7x7x1 ![] bcast_S_S65536x7x7x1 : (⟨S_, .f32⟩ : BufTy).Contents (Elt F) → (⟨S65536x7x7x1, .f32⟩ : BufTy).Contents (Elt F)),
    binary main_v72 main_v73 main_v74 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v71 main_v74 main_v75 (subf : (⟨S65536x7x7x1, .f32⟩ : BufTy).Contents (Elt F) → (⟨S65536x7x7x1, .f32⟩ : BufTy).Contents (Elt F) → (⟨S65536x7x7x1, .f32⟩ : BufTy).Contents (Elt F)),
    unary main_v64 main_v76 ((extractStridedSlice S65536x7x7x1 ![0, 0, 0, 0] · slices_S65536x7x7x4_S65536x7x7x1_0_0_0_0) : (⟨S65536x7x7x4, .f32⟩ : BufTy).Contents (Elt F) → (⟨S65536x7x7x1, .f32⟩ : BufTy).Contents (Elt F)),
    unary main_v64 main_v77 ((extractStridedSlice S65536x7x7x1 ![0, 0, 0, 2] · slices_S65536x7x7x4_S65536x7x7x1_0_0_0_2) : (⟨S65536x7x7x4, .f32⟩ : BufTy).Contents (Elt F) → (⟨S65536x7x7x1, .f32⟩ : BufTy).Contents (Elt F)),
    nullary main_cst_11 (constant S_ .f32 0x40000000#32),
    unary main_cst_11 main_v78 (broadcastInDim S65536x7x7x1 ![] bcast_S_S65536x7x7x1 : (⟨S_, .f32⟩ : BufTy).Contents (Elt F) → (⟨S65536x7x7x1, .f32⟩ : BufTy).Contents (Elt F)),
    binary main_v77 main_v78 main_v79 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v76 main_v79 main_v80 (addf : (⟨S65536x7x7x1, .f32⟩ : BufTy).Contents (Elt F) → (⟨S65536x7x7x1, .f32⟩ : BufTy).Contents (Elt F) → (⟨S65536x7x7x1, .f32⟩ : BufTy).Contents (Elt F)),
    unary main_v64 main_v81 ((extractStridedSlice S65536x7x7x1 ![0, 0, 0, 1] · slices_S65536x7x7x4_S65536x7x7x1_0_0_0_1) : (⟨S65536x7x7x4, .f32⟩ : BufTy).Contents (Elt F) → (⟨S65536x7x7x1, .f32⟩ : BufTy).Contents (Elt F)),
    unary main_v64 main_v82 ((extractStridedSlice S65536x7x7x1 ![0, 0, 0, 3] · slices_S65536x7x7x4_S65536x7x7x1_0_0_0_3) : (⟨S65536x7x7x4, .f32⟩ : BufTy).Contents (Elt F) → (⟨S65536x7x7x1, .f32⟩ : BufTy).Contents (Elt F)),
    nullary main_cst_12 (constant S_ .f32 0x40000000#32),
    unary main_cst_12 main_v83 (broadcastInDim S65536x7x7x1 ![] bcast_S_S65536x7x7x1 : (⟨S_, .f32⟩ : BufTy).Contents (Elt F) → (⟨S65536x7x7x1, .f32⟩ : BufTy).Contents (Elt F)),
    binary main_v82 main_v83 main_v84 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v81 main_v84 main_v85 (addf : (⟨S65536x7x7x1, .f32⟩ : BufTy).Contents (Elt F) → (⟨S65536x7x7x1, .f32⟩ : BufTy).Contents (Elt F) → (⟨S65536x7x7x1, .f32⟩ : BufTy).Contents (Elt F)),
    unary main_v65 main_v86 ((extractStridedSlice S65536x7x7x1 ![0, 0, 0, 0] · slices_S65536x7x7x4_S65536x7x7x1_0_0_0_0) : (⟨S65536x7x7x4, .f32⟩ : BufTy).Contents (Elt F) → (⟨S65536x7x7x1, .f32⟩ : BufTy).Contents (Elt F)),
    unary main_v65 main_v87 ((extractStridedSlice S65536x7x7x1 ![0, 0, 0, 2] · slices_S65536x7x7x4_S65536x7x7x1_0_0_0_2) : (⟨S65536x7x7x4, .f32⟩ : BufTy).Contents (Elt F) → (⟨S65536x7x7x1, .f32⟩ : BufTy).Contents (Elt F)),
    nullary main_cst_13 (constant S_ .f32 0x40000000#32),
    unary main_cst_13 main_v88 (broadcastInDim S65536x7x7x1 ![] bcast_S_S65536x7x7x1 : (⟨S_, .f32⟩ : BufTy).Contents (Elt F) → (⟨S65536x7x7x1, .f32⟩ : BufTy).Contents (Elt F)),
    binary main_v87 main_v88 main_v89 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v86 main_v89 main_v90 (subf : (⟨S65536x7x7x1, .f32⟩ : BufTy).Contents (Elt F) → (⟨S65536x7x7x1, .f32⟩ : BufTy).Contents (Elt F) → (⟨S65536x7x7x1, .f32⟩ : BufTy).Contents (Elt F)),
    unary main_v65 main_v91 ((extractStridedSlice S65536x7x7x1 ![0, 0, 0, 1] · slices_S65536x7x7x4_S65536x7x7x1_0_0_0_1) : (⟨S65536x7x7x4, .f32⟩ : BufTy).Contents (Elt F) → (⟨S65536x7x7x1, .f32⟩ : BufTy).Contents (Elt F)),
    unary main_v65 main_v92 ((extractStridedSlice S65536x7x7x1 ![0, 0, 0, 3] · slices_S65536x7x7x4_S65536x7x7x1_0_0_0_3) : (⟨S65536x7x7x4, .f32⟩ : BufTy).Contents (Elt F) → (⟨S65536x7x7x1, .f32⟩ : BufTy).Contents (Elt F)),
    nullary main_cst_14 (constant S_ .f32 0x40000000#32),
    unary main_cst_14 main_v93 (broadcastInDim S65536x7x7x1 ![] bcast_S_S65536x7x7x1 : (⟨S_, .f32⟩ : BufTy).Contents (Elt F) → (⟨S65536x7x7x1, .f32⟩ : BufTy).Contents (Elt F)),
    binary main_v92 main_v93 main_v94 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v91 main_v94 main_v95 (subf : (⟨S65536x7x7x1, .f32⟩ : BufTy).Contents (Elt F) → (⟨S65536x7x7x1, .f32⟩ : BufTy).Contents (Elt F) → (⟨S65536x7x7x1, .f32⟩ : BufTy).Contents (Elt F)),
    unary main_v65 main_v96 ((extractStridedSlice S65536x7x7x1 ![0, 0, 0, 0] · slices_S65536x7x7x4_S65536x7x7x1_0_0_0_0) : (⟨S65536x7x7x4, .f32⟩ : BufTy).Contents (Elt F) → (⟨S65536x7x7x1, .f32⟩ : BufTy).Contents (Elt F)),
    unary main_v65 main_v97 ((extractStridedSlice S65536x7x7x1 ![0, 0, 0, 2] · slices_S65536x7x7x4_S65536x7x7x1_0_0_0_2) : (⟨S65536x7x7x4, .f32⟩ : BufTy).Contents (Elt F) → (⟨S65536x7x7x1, .f32⟩ : BufTy).Contents (Elt F)),
    nullary main_cst_15 (constant S_ .f32 0x40000000#32),
    unary main_cst_15 main_v98 (broadcastInDim S65536x7x7x1 ![] bcast_S_S65536x7x7x1 : (⟨S_, .f32⟩ : BufTy).Contents (Elt F) → (⟨S65536x7x7x1, .f32⟩ : BufTy).Contents (Elt F)),
    binary main_v97 main_v98 main_v99 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v96 main_v99 main_v100 (addf : (⟨S65536x7x7x1, .f32⟩ : BufTy).Contents (Elt F) → (⟨S65536x7x7x1, .f32⟩ : BufTy).Contents (Elt F) → (⟨S65536x7x7x1, .f32⟩ : BufTy).Contents (Elt F)),
    unary main_v65 main_v101 ((extractStridedSlice S65536x7x7x1 ![0, 0, 0, 1] · slices_S65536x7x7x4_S65536x7x7x1_0_0_0_1) : (⟨S65536x7x7x4, .f32⟩ : BufTy).Contents (Elt F) → (⟨S65536x7x7x1, .f32⟩ : BufTy).Contents (Elt F)) ]

/-- Window 2: the second overlap ratio, the pick, the objectness sum and the first no-object sum. -/
abbrev ops2 : List (HloOp τ sig (Elt F)) :=
  [ unary main_v65 main_v102 ((extractStridedSlice S65536x7x7x1 ![0, 0, 0, 3] · slices_S65536x7x7x4_S65536x7x7x1_0_0_0_3) : (⟨S65536x7x7x4, .f32⟩ : BufTy).Contents (Elt F) → (⟨S65536x7x7x1, .f32⟩ : BufTy).Contents (Elt F)),
    nullary main_cst_16 (constant S_ .f32 0x40000000#32),
    unary main_cst_16 main_v103 (broadcastInDim S65536x7x7x1 ![] bcast_S_S65536x7x7x1 : (⟨S_, .f32⟩ : BufTy).Contents (Elt F) → (⟨S65536x7x7x1, .f32⟩ : BufTy).Contents (Elt F)),
    binary main_v102 main_v103 main_v104 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v101 main_v104 main_v105 (addf : (⟨S65536x7x7x1, .f32⟩ : BufTy).Contents (Elt F) → (⟨S65536x7x7x1, .f32⟩ : BufTy).Contents (Elt F) → (⟨S65536x7x7x1, .f32⟩ : BufTy).Contents (Elt F)),
    binary main_v70 main_v90 main_v106 (maximumf : (⟨S65536x7x7x1, .f32⟩ : BufTy).Contents (Elt F) → (⟨S65536x7x7x1, .f32⟩ : BufTy).Contents (Elt F) → (⟨S65536x7x7x1, .f32⟩ : BufTy).Contents (Elt F)),
    binary main_v75 main_v95 main_v107 (maximumf : (⟨S65536x7x7x1, .f32⟩ : BufTy).Contents (Elt F) → (⟨S65536x7x7x1, .f32⟩ : BufTy).Contents (Elt F) → (⟨S65536x7x7x1, .f32⟩ : BufTy).Contents (Elt F)),
    binary main_v80 main_v100 main_v108 (minimumf : (⟨S65536x7x7x1, .f32⟩ : BufTy).Contents (Elt F) → (⟨S65536x7x7x1, .f32⟩ : BufTy).Contents (Elt F) → (⟨S65536x7x7x1, .f32⟩ : BufTy).Contents (Elt F)),
    binary main_v85 main_v105 main_v109 (minimumf : (⟨S65536x7x7x1, .f32⟩ : BufTy).Contents (Elt F) → (⟨S65536x7x7x1, .f32⟩ : BufTy).Contents (Elt F) → (⟨S65536x7x7x1, .f32⟩ : BufTy).Contents (Elt F)),
    binary main_v108 main_v106 main_v110 (subf : (⟨S65536x7x7x1, .f32⟩ : BufTy).Contents (Elt F) → (⟨S65536x7x7x1, .f32⟩ : BufTy).Contents (Elt F) → (⟨S65536x7x7x1, .f32⟩ : BufTy).Contents (Elt F)),
    nullary main_c_17 (constantI S_ 32 0#32),
    TRef.unary (TRef.of (T := ⟨S_, .i32⟩) main_c_17) main_call2.v0 (sitofp (F := F) .f32),
    TRef.unary main_call2.v0 main_call2.v1 (broadcastInDim S65536x7x7x1 ![] bcast_S_S65536x7x7x1),
    TRef.binary main_call2.v1 (TRef.of (T := ⟨S65536x7x7x1, .f32⟩) main_v110) main_call2.v2 maximumf,
    binary main_v109 main_v107 main_v112 (subf : (⟨S65536x7x7x1, .f32⟩ : BufTy).Contents (Elt F) → (⟨S65536x7x7x1, .f32⟩ : BufTy).Contents (Elt F) → (⟨S65536x7x7x1, .f32⟩ : BufTy).Contents (Elt F)),
    nullary main_c_18 (constantI S_ 32 0#32),
    TRef.unary (TRef.of (T := ⟨S_, .i32⟩) main_c_18) main_call3.v0 (sitofp (F := F) .f32),
    TRef.unary main_call3.v0 main_call3.v1 (broadcastInDim S65536x7x7x1 ![] bcast_S_S65536x7x7x1),
    TRef.binary main_call3.v1 (TRef.of (T := ⟨S65536x7x7x1, .f32⟩) main_v112) main_call3.v2 maximumf,
    binary main_v111 main_v113 main_v114 (mulf : (⟨S65536x7x7x1, .f32⟩ : BufTy).Contents (Elt F) → (⟨S65536x7x7x1, .f32⟩ : BufTy).Contents (Elt F) → (⟨S65536x7x7x1, .f32⟩ : BufTy).Contents (Elt F)),
    binary main_v80 main_v70 main_v115 (subf : (⟨S65536x7x7x1, .f32⟩ : BufTy).Contents (Elt F) → (⟨S65536x7x7x1, .f32⟩ : BufTy).Contents (Elt F) → (⟨S65536x7x7x1, .f32⟩ : BufTy).Contents (Elt F)),
    binary main_v85 main_v75 main_v116 (subf : (⟨S65536x7x7x1, .f32⟩ : BufTy).Contents (Elt F) → (⟨S65536x7x7x1, .f32⟩ : BufTy).Contents (Elt F) → (⟨S65536x7x7x1, .f32⟩ : BufTy).Contents (Elt F)),
    binary main_v115 main_v116 main_v117 (mulf : (⟨S65536x7x7x1, .f32⟩ : BufTy).Contents (Elt F) → (⟨S65536x7x7x1, .f32⟩ : BufTy).Contents (Elt F) → (⟨S65536x7x7x1, .f32⟩ : BufTy).Contents (Elt F)),
    unary main_v117 main_v118 (Host.absf : (⟨S65536x7x7x1, .f32⟩ : BufTy).Contents (Elt F) → (⟨S65536x7x7x1, .f32⟩ : BufTy).Contents (Elt F)),
    binary main_v100 main_v90 main_v119 (subf : (⟨S65536x7x7x1, .f32⟩ : BufTy).Contents (Elt F) → (⟨S65536x7x7x1, .f32⟩ : BufTy).Contents (Elt F) → (⟨S65536x7x7x1, .f32⟩ : BufTy).Contents (Elt F)),
    binary main_v105 main_v95 main_v120 (subf : (⟨S65536x7x7x1, .f32⟩ : BufTy).Contents (Elt F) → (⟨S65536x7x7x1, .f32⟩ : BufTy).Contents (Elt F) → (⟨S65536x7x7x1, .f32⟩ : BufTy).Contents (Elt F)),
    binary main_v119 main_v120 main_v121 (mulf : (⟨S65536x7x7x1, .f32⟩ : BufTy).Contents (Elt F) → (⟨S65536x7x7x1, .f32⟩ : BufTy).Contents (Elt F) → (⟨S65536x7x7x1, .f32⟩ : BufTy).Contents (Elt F)),
    unary main_v121 main_v122 (Host.absf : (⟨S65536x7x7x1, .f32⟩ : BufTy).Contents (Elt F) → (⟨S65536x7x7x1, .f32⟩ : BufTy).Contents (Elt F)),
    binary main_v118 main_v122 main_v123 (addf : (⟨S65536x7x7x1, .f32⟩ : BufTy).Contents (Elt F) → (⟨S65536x7x7x1, .f32⟩ : BufTy).Contents (Elt F) → (⟨S65536x7x7x1, .f32⟩ : BufTy).Contents (Elt F)),
    binary main_v123 main_v114 main_v124 (subf : (⟨S65536x7x7x1, .f32⟩ : BufTy).Contents (Elt F) → (⟨S65536x7x7x1, .f32⟩ : BufTy).Contents (Elt F) → (⟨S65536x7x7x1, .f32⟩ : BufTy).Contents (Elt F)),
    nullary main_cst_19 (constant S_ .f32 0x358637BD#32),
    unary main_cst_19 main_v125 (broadcastInDim S65536x7x7x1 ![] bcast_S_S65536x7x7x1 : (⟨S_, .f32⟩ : BufTy).Contents (Elt F) → (⟨S65536x7x7x1, .f32⟩ : BufTy).Contents (Elt F)),
    binary main_v124 main_v125 main_v126 (addf : (⟨S65536x7x7x1, .f32⟩ : BufTy).Contents (Elt F) → (⟨S65536x7x7x1, .f32⟩ : BufTy).Contents (Elt F) → (⟨S65536x7x7x1, .f32⟩ : BufTy).Contents (Elt F)),
    binary main_v114 main_v126 main_v127 (Host.divf : (⟨S65536x7x7x1, .f32⟩ : BufTy).Contents (Elt F) → (⟨S65536x7x7x1, .f32⟩ : BufTy).Contents (Elt F) → (⟨S65536x7x7x1, .f32⟩ : BufTy).Contents (Elt F)),
    binary main_v127 main_v63 main_v128 (cmpf (F := F) .ogt : (⟨S65536x7x7x1, .f32⟩ : BufTy).Contents (Elt F) → (⟨S65536x7x7x1, .f32⟩ : BufTy).Contents (Elt F) → (⟨S65536x7x7x1, .i1⟩ : BufTy).Contents (Elt F)),
    unary main_v128 main_v129 (uitofp (F := F) .f32 : (⟨S65536x7x7x1, .i1⟩ : BufTy).Contents (Elt F) → (⟨S65536x7x7x1, .f32⟩ : BufTy).Contents (Elt F)),
    unary main_arg1 main_v130 ((extractStridedSlice S65536x7x7x1 ![0, 0, 0, 20] · slices_S65536x7x7x30_S65536x7x7x1_0_0_0_20) : (⟨S65536x7x7x30, .f32⟩ : BufTy).Contents (Elt F) → (⟨S65536x7x7x1, .f32⟩ : BufTy).Contents (Elt F)),
    nullary main_cst_20 (constant S_ .f32 0x3F800000#32),
    unary main_cst_20 main_v131 (broadcastInDim S65536x7x7x1 ![] bcast_S_S65536x7x7x1 : (⟨S_, .f32⟩ : BufTy).Contents (Elt F) → (⟨S65536x7x7x1, .f32⟩ : BufTy).Contents (Elt F)),
    binary main_v131 main_v129 main_v132 (subf : (⟨S65536x7x7x1, .f32⟩ : BufTy).Contents (Elt F) → (⟨S65536x7x7x1, .f32⟩ : BufTy).Contents (Elt F) → (⟨S65536x7x7x1, .f32⟩ : BufTy).Contents (Elt F)),
    unary main_arg0 main_v133 ((extractStridedSlice S65536x7x7x1 ![0, 0, 0, 20] · slices_S65536x7x7x30_S65536x7x7x1_0_0_0_20) : (⟨S65536x7x7x30, .f32⟩ : BufTy).Contents (Elt F) → (⟨S65536x7x7x1, .f32⟩ : BufTy).Contents (Elt F)),
    binary main_v132 main_v133 main_v134 (mulf : (⟨S65536x7x7x1, .f32⟩ : BufTy).Contents (Elt F) → (⟨S65536x7x7x1, .f32⟩ : BufTy).Contents (Elt F) → (⟨S65536x7x7x1, .f32⟩ : BufTy).Contents (Elt F)),
    unary main_arg0 main_v135 ((extractStridedSlice S65536x7x7x1 ![0, 0, 0, 29] · slices_S65536x7x7x30_S65536x7x7x1_0_0_0_29) : (⟨S65536x7x7x30, .f32⟩ : BufTy).Contents (Elt F) → (⟨S65536x7x7x1, .f32⟩ : BufTy).Contents (Elt F)),
    binary main_v129 main_v135 main_v136 (mulf : (⟨S65536x7x7x1, .f32⟩ : BufTy).Contents (Elt F) → (⟨S65536x7x7x1, .f32⟩ : BufTy).Contents (Elt F) → (⟨S65536x7x7x1, .f32⟩ : BufTy).Contents (Elt F)),
    binary main_v134 main_v136 main_v137 (addf : (⟨S65536x7x7x1, .f32⟩ : BufTy).Contents (Elt F) → (⟨S65536x7x7x1, .f32⟩ : BufTy).Contents (Elt F) → (⟨S65536x7x7x1, .f32⟩ : BufTy).Contents (Elt F)),
    binary main_v130 main_v137 main_v138 (mulf : (⟨S65536x7x7x1, .f32⟩ : BufTy).Contents (Elt F) → (⟨S65536x7x7x1, .f32⟩ : BufTy).Contents (Elt F) → (⟨S65536x7x7x1, .f32⟩ : BufTy).Contents (Elt F)),
    unary main_arg1 main_v139 ((extractStridedSlice S65536x7x7x1 ![0, 0, 0, 20] · slices_S65536x7x7x30_S65536x7x7x1_0_0_0_20) : (⟨S65536x7x7x30, .f32⟩ : BufTy).Contents (Elt F) → (⟨S65536x7x7x1, .f32⟩ : BufTy).Contents (Elt F)),
    binary main_v130 main_v139 main_v140 (mulf : (⟨S65536x7x7x1, .f32⟩ : BufTy).Contents (Elt F) → (⟨S65536x7x7x1, .f32⟩ : BufTy).Contents (Elt F) → (⟨S65536x7x7x1, .f32⟩ : BufTy).Contents (Elt F)),
    binary main_v138 main_v140 main_v141 (subf : (⟨S65536x7x7x1, .f32⟩ : BufTy).Contents (Elt F) → (⟨S65536x7x7x1, .f32⟩ : BufTy).Contents (Elt F) → (⟨S65536x7x7x1, .f32⟩ : BufTy).Contents (Elt F)),
    binary main_v141 main_v141 main_v142 (mulf : (⟨S65536x7x7x1, .f32⟩ : BufTy).Contents (Elt F) → (⟨S65536x7x7x1, .f32⟩ : BufTy).Contents (Elt F) → (⟨S65536x7x7x1, .f32⟩ : BufTy).Contents (Elt F)),
    nullary main_cst_21 (constant S_ .f32 0x00000000#32),
    binary main_v142 main_cst_21 main_v143 ((fun x v => Host.reduceAdd x v reducesTo_S65536x7x7x1_S_d0_1_2_3 h_S_) : (⟨S65536x7x7x1, .f32⟩ : BufTy).Contents (Elt F) → (⟨S_, .f32⟩ : BufTy).Contents (Elt F) → (⟨S_, .f32⟩ : BufTy).Contents (Elt F)),
    nullary main_cst_22 (constant S_ .f32 0x3F800000#32),
    unary main_cst_22 main_v144 (broadcastInDim S65536x7x7x1 ![] bcast_S_S65536x7x7x1 : (⟨S_, .f32⟩ : BufTy).Contents (Elt F) → (⟨S65536x7x7x1, .f32⟩ : BufTy).Contents (Elt F)),
    binary main_v144 main_v130 main_v145 (subf : (⟨S65536x7x7x1, .f32⟩ : BufTy).Contents (Elt F) → (⟨S65536x7x7x1, .f32⟩ : BufTy).Contents (Elt F) → (⟨S65536x7x7x1, .f32⟩ : BufTy).Contents (Elt F)),
    unary main_arg0 main_v146 ((extractStridedSlice S65536x7x7x1 ![0, 0, 0, 20] · slices_S65536x7x7x30_S65536x7x7x1_0_0_0_20) : (⟨S65536x7x7x30, .f32⟩ : BufTy).Contents (Elt F) → (⟨S65536x7x7x1, .f32⟩ : BufTy).Contents (Elt F)),
    binary main_v145 main_v146 main_v147 (mulf : (⟨S65536x7x7x1, .f32⟩ : BufTy).Contents (Elt F) → (⟨S65536x7x7x1, .f32⟩ : BufTy).Contents (Elt F) → (⟨S65536x7x7x1, .f32⟩ : BufTy).Contents (Elt F)),
    unary main_arg1 main_v148 ((extractStridedSlice S65536x7x7x1 ![0, 0, 0, 20] · slices_S65536x7x7x30_S65536x7x7x1_0_0_0_20) : (⟨S65536x7x7x30, .f32⟩ : BufTy).Contents (Elt F) → (⟨S65536x7x7x1, .f32⟩ : BufTy).Contents (Elt F)),
    binary main_v145 main_v148 main_v149 (mulf : (⟨S65536x7x7x1, .f32⟩ : BufTy).Contents (Elt F) → (⟨S65536x7x7x1, .f32⟩ : BufTy).Contents (Elt F) → (⟨S65536x7x7x1, .f32⟩ : BufTy).Contents (Elt F)),
    binary main_v147 main_v149 main_v150 (subf : (⟨S65536x7x7x1, .f32⟩ : BufTy).Contents (Elt F) → (⟨S65536x7x7x1, .f32⟩ : BufTy).Contents (Elt F) → (⟨S65536x7x7x1, .f32⟩ : BufTy).Contents (Elt F)),
    binary main_v150 main_v150 main_v151 (mulf : (⟨S65536x7x7x1, .f32⟩ : BufTy).Contents (Elt F) → (⟨S65536x7x7x1, .f32⟩ : BufTy).Contents (Elt F) → (⟨S65536x7x7x1, .f32⟩ : BufTy).Contents (Elt F)),
    nullary main_cst_23 (constant S_ .f32 0x00000000#32),
    binary main_v151 main_cst_23 main_v152 ((fun x v => Host.reduceAdd x v reducesTo_S65536x7x7x1_S_d0_1_2_3 h_S_) : (⟨S65536x7x7x1, .f32⟩ : BufTy).Contents (Elt F) → (⟨S_, .f32⟩ : BufTy).Contents (Elt F) → (⟨S_, .f32⟩ : BufTy).Contents (Elt F)),
    unary main_arg0 main_v153 ((extractStridedSlice S65536x7x7x1 ![0, 0, 0, 29] · slices_S65536x7x7x30_S65536x7x7x1_0_0_0_29) : (⟨S65536x7x7x30, .f32⟩ : BufTy).Contents (Elt F) → (⟨S65536x7x7x1, .f32⟩ : BufTy).Contents (Elt F)) ]

/-- Window 3: the second no-object sum, the class sum, and the total. -/
abbrev ops3 : List (HloOp τ sig (Elt F)) :=
  [ binary main_v145 main_v153 main_v154 (mulf : (⟨S65536x7x7x1, .f32⟩ : BufTy).Contents (Elt F) → (⟨S65536x7x7x1, .f32⟩ : BufTy).Contents (Elt F) → (⟨S65536x7x7x1, .f32⟩ : BufTy).Contents (Elt F)),
    unary main_arg1 main_v155 ((extractStridedSlice S65536x7x7x1 ![0, 0, 0, 20] · slices_S65536x7x7x30_S65536x7x7x1_0_0_0_20) : (⟨S65536x7x7x30, .f32⟩ : BufTy).Contents (Elt F) → (⟨S65536x7x7x1, .f32⟩ : BufTy).Contents (Elt F)),
    binary main_v145 main_v155 main_v156 (mulf : (⟨S65536x7x7x1, .f32⟩ : BufTy).Contents (Elt F) → (⟨S65536x7x7x1, .f32⟩ : BufTy).Contents (Elt F) → (⟨S65536x7x7x1, .f32⟩ : BufTy).Contents (Elt F)),
    binary main_v154 main_v156 main_v157 (subf : (⟨S65536x7x7x1, .f32⟩ : BufTy).Contents (Elt F) → (⟨S65536x7x7x1, .f32⟩ : BufTy).Contents (Elt F) → (⟨S65536x7x7x1, .f32⟩ : BufTy).Contents (Elt F)),
    binary main_v157 main_v157 main_v158 (mulf : (⟨S65536x7x7x1, .f32⟩ : BufTy).Contents (Elt F) → (⟨S65536x7x7x1, .f32⟩ : BufTy).Contents (Elt F) → (⟨S65536x7x7x1, .f32⟩ : BufTy).Contents (Elt F)),
    nullary main_cst_24 (constant S_ .f32 0x00000000#32),
    binary main_v158 main_cst_24 main_v159 ((fun x v => Host.reduceAdd x v reducesTo_S65536x7x7x1_S_d0_1_2_3 h_S_) : (⟨S65536x7x7x1, .f32⟩ : BufTy).Contents (Elt F) → (⟨S_, .f32⟩ : BufTy).Contents (Elt F) → (⟨S_, .f32⟩ : BufTy).Contents (Elt F)),
    binary main_v152 main_v159 main_v160 (addf : (⟨S_, .f32⟩ : BufTy).Contents (Elt F) → (⟨S_, .f32⟩ : BufTy).Contents (Elt F) → (⟨S_, .f32⟩ : BufTy).Contents (Elt F)),
    unary main_arg0 main_v161 ((extractStridedSlice S65536x7x7x20 ![0, 0, 0, 0] · slices_S65536x7x7x30_S65536x7x7x20_0_0_0_0) : (⟨S65536x7x7x30, .f32⟩ : BufTy).Contents (Elt F) → (⟨S65536x7x7x20, .f32⟩ : BufTy).Contents (Elt F)),
    unary main_v130 main_v162 (broadcastInDim S65536x7x7x20 ![0, 1, 2, 3] bcast_S65536x7x7x1_S65536x7x7x20_0_1_2_3 : (⟨S65536x7x7x1, .f32⟩ : BufTy).Contents (Elt F) → (⟨S65536x7x7x20, .f32⟩ : BufTy).Contents (Elt F)),
    binary main_v162 main_v161 main_v163 (mulf : (⟨S65536x7x7x20, .f32⟩ : BufTy).Contents (Elt F) → (⟨S65536x7x7x20, .f32⟩ : BufTy).Contents (Elt F) → (⟨S65536x7x7x20, .f32⟩ : BufTy).Contents (Elt F)),
    unary main_arg1 main_v164 ((extractStridedSlice S65536x7x7x20 ![0, 0, 0, 0] · slices_S65536x7x7x30_S65536x7x7x20_0_0_0_0) : (⟨S65536x7x7x30, .f32⟩ : BufTy).Contents (Elt F) → (⟨S65536x7x7x20, .f32⟩ : BufTy).Contents (Elt F)),
    unary main_v130 main_v165 (broadcastInDim S65536x7x7x20 ![0, 1, 2, 3] bcast_S65536x7x7x1_S65536x7x7x20_0_1_2_3 : (⟨S65536x7x7x1, .f32⟩ : BufTy).Contents (Elt F) → (⟨S65536x7x7x20, .f32⟩ : BufTy).Contents (Elt F)),
    binary main_v165 main_v164 main_v166 (mulf : (⟨S65536x7x7x20, .f32⟩ : BufTy).Contents (Elt F) → (⟨S65536x7x7x20, .f32⟩ : BufTy).Contents (Elt F) → (⟨S65536x7x7x20, .f32⟩ : BufTy).Contents (Elt F)),
    binary main_v163 main_v166 main_v167 (subf : (⟨S65536x7x7x20, .f32⟩ : BufTy).Contents (Elt F) → (⟨S65536x7x7x20, .f32⟩ : BufTy).Contents (Elt F) → (⟨S65536x7x7x20, .f32⟩ : BufTy).Contents (Elt F)),
    binary main_v167 main_v167 main_v168 (mulf : (⟨S65536x7x7x20, .f32⟩ : BufTy).Contents (Elt F) → (⟨S65536x7x7x20, .f32⟩ : BufTy).Contents (Elt F) → (⟨S65536x7x7x20, .f32⟩ : BufTy).Contents (Elt F)),
    nullary main_cst_25 (constant S_ .f32 0x00000000#32),
    binary main_v168 main_cst_25 main_v169 ((fun x v => Host.reduceAdd x v reducesTo_S65536x7x7x20_S_d0_1_2_3 h_S_) : (⟨S65536x7x7x20, .f32⟩ : BufTy).Contents (Elt F) → (⟨S_, .f32⟩ : BufTy).Contents (Elt F) → (⟨S_, .f32⟩ : BufTy).Contents (Elt F)),
    nullary main_cst_26 (constant S_ .f32 0x40A00000#32),
    nullary main_cst_27 (constant S_ .f32 0x00000000#32),
    binary main_cst_26 main_cst_27 main_v170 (mulf : (⟨S_, .f32⟩ : BufTy).Contents (Elt F) → (⟨S_, .f32⟩ : BufTy).Contents (Elt F) → (⟨S_, .f32⟩ : BufTy).Contents (Elt F)),
    binary main_v170 main_v143 main_v171 (addf : (⟨S_, .f32⟩ : BufTy).Contents (Elt F) → (⟨S_, .f32⟩ : BufTy).Contents (Elt F) → (⟨S_, .f32⟩ : BufTy).Contents (Elt F)),
    nullary main_cst_28 (constant S_ .f32 0x3F000000#32),
    binary main_cst_28 main_v160 main_v172 (mulf : (⟨S_, .f32⟩ : BufTy).Contents (Elt F) → (⟨S_, .f32⟩ : BufTy).Contents (Elt F) → (⟨S_, .f32⟩ : BufTy).Contents (Elt F)),
    binary main_v171 main_v172 main_v173 (addf : (⟨S_, .f32⟩ : BufTy).Contents (Elt F) → (⟨S_, .f32⟩ : BufTy).Contents (Elt F) → (⟨S_, .f32⟩ : BufTy).Contents (Elt F)),
    binary main_v173 main_v169 main_v174 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem part0_eq (d : Dev nD) : main_part0 (F := F) d = seq ops0 := rfl

set_option maxRecDepth 8192 in
set_option maxHeartbeats 4000000 in
theorem part1_eq (d : Dev nD) : main_part1 (F := F) d = seq ops1 := rfl

set_option maxRecDepth 8192 in
set_option maxHeartbeats 4000000 in
theorem part2_eq (d : Dev nD) : main_part2 (F := F) d = seq ops2 := rfl

set_option maxRecDepth 8192 in
set_option maxHeartbeats 4000000 in
theorem part3_eq (d : Dev nD) : main_part3 (F := F) d = seq ops3 := rfl

theorem ops0_sub : (ops0 : List (HloOp τ sig (Elt F))).Forall fun op => op.bufs ⊆ tcRefs τ sig :=
  ⟨unary_bufs_sub .., unary_bufs_sub .., unary_bufs_sub .., unary_bufs_sub .., nullary_bufs_sub .., unary_bufs_sub ..,
    binary_bufs_sub .., binary_bufs_sub .., unary_bufs_sub .., unary_bufs_sub .., nullary_bufs_sub .., unary_bufs_sub ..,
    binary_bufs_sub .., binary_bufs_sub .., unary_bufs_sub .., unary_bufs_sub .., nullary_bufs_sub .., unary_bufs_sub ..,
    binary_bufs_sub .., binary_bufs_sub .., unary_bufs_sub .., unary_bufs_sub .., nullary_bufs_sub .., unary_bufs_sub ..,
    binary_bufs_sub .., binary_bufs_sub .., unary_bufs_sub .., unary_bufs_sub .., nullary_bufs_sub .., unary_bufs_sub ..,
    binary_bufs_sub .., binary_bufs_sub .., unary_bufs_sub .., unary_bufs_sub .., nullary_bufs_sub .., unary_bufs_sub ..,
    binary_bufs_sub .., binary_bufs_sub .., unary_bufs_sub .., unary_bufs_sub .., nullary_bufs_sub .., unary_bufs_sub ..,
    binary_bufs_sub .., binary_bufs_sub .., unary_bufs_sub .., unary_bufs_sub .., nullary_bufs_sub .., unary_bufs_sub ..,
    binary_bufs_sub .., binary_bufs_sub .., binary_bufs_sub .., binary_bufs_sub .., binary_bufs_sub .., binary_bufs_sub ..,
    binary_bufs_sub .., nullary_bufs_sub .., unary_bufs_sub .., unary_bufs_sub .., binary_bufs_sub .., binary_bufs_sub ..,
    nullary_bufs_sub .., unary_bufs_sub .., unary_bufs_sub .., binary_bufs_sub ..⟩

theorem ops1_sub : (ops1 : List (HloOp τ sig (Elt F))).Forall fun op => op.bufs ⊆ tcRefs τ sig :=
  ⟨binary_bufs_sub .., binary_bufs_sub .., binary_bufs_sub .., binary_bufs_sub .., unary_bufs_sub .., binary_bufs_sub ..,
    binary_bufs_sub .., binary_bufs_sub .., unary_bufs_sub .., binary_bufs_sub .., binary_bufs_sub .., nullary_bufs_sub ..,
    unary_bufs_sub .., binary_bufs_sub .., binary_bufs_sub .., unary_bufs_sub .., unary_bufs_sub .., unary_bufs_sub ..,
    unary_bufs_sub .., nullary_bufs_sub .., unary_bufs_sub .., binary_bufs_sub .., binary_bufs_sub .., unary_bufs_sub ..,
    unary_bufs_sub .., nullary_bufs_sub .., unary_bufs_sub .., binary_bufs_sub .., binary_bufs_sub .., unary_bufs_sub ..,
    unary_bufs_sub .., nullary_bufs_sub .., unary_bufs_sub .., binary_bufs_sub .., binary_bufs_sub .., unary_bufs_sub ..,
    unary_bufs_sub .., nullary_bufs_sub .., unary_bufs_sub .., binary_bufs_sub .., binary_bufs_sub .., unary_bufs_sub ..,
    unary_bufs_sub .., nullary_bufs_sub .., unary_bufs_sub .., binary_bufs_sub .., binary_bufs_sub .., unary_bufs_sub ..,
    unary_bufs_sub .., nullary_bufs_sub .., unary_bufs_sub .., binary_bufs_sub .., binary_bufs_sub .., unary_bufs_sub ..,
    unary_bufs_sub .., nullary_bufs_sub .., unary_bufs_sub .., binary_bufs_sub .., binary_bufs_sub .., unary_bufs_sub ..⟩

theorem ops2_sub : (ops2 : List (HloOp τ sig (Elt F))).Forall fun op => op.bufs ⊆ tcRefs τ sig :=
  ⟨unary_bufs_sub .., nullary_bufs_sub .., unary_bufs_sub .., binary_bufs_sub .., binary_bufs_sub .., binary_bufs_sub ..,
    binary_bufs_sub .., binary_bufs_sub .., binary_bufs_sub .., binary_bufs_sub .., nullary_bufs_sub .., unary_bufs_sub ..,
    unary_bufs_sub .., binary_bufs_sub .., binary_bufs_sub .., nullary_bufs_sub .., unary_bufs_sub .., unary_bufs_sub ..,
    binary_bufs_sub .., binary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    nullary_bufs_sub .., unary_bufs_sub .., binary_bufs_sub .., binary_bufs_sub .., binary_bufs_sub .., unary_bufs_sub ..,
    unary_bufs_sub .., nullary_bufs_sub .., unary_bufs_sub .., binary_bufs_sub .., unary_bufs_sub .., binary_bufs_sub ..,
    unary_bufs_sub .., binary_bufs_sub .., binary_bufs_sub .., binary_bufs_sub .., unary_bufs_sub .., binary_bufs_sub ..,
    binary_bufs_sub .., binary_bufs_sub .., nullary_bufs_sub .., binary_bufs_sub .., nullary_bufs_sub .., unary_bufs_sub ..,
    binary_bufs_sub .., unary_bufs_sub .., binary_bufs_sub .., unary_bufs_sub .., binary_bufs_sub .., binary_bufs_sub ..,
    binary_bufs_sub .., nullary_bufs_sub .., binary_bufs_sub .., unary_bufs_sub ..⟩

theorem ops3_sub : (ops3 : List (HloOp τ sig (Elt F))).Forall fun op => op.bufs ⊆ tcRefs τ sig :=
  ⟨binary_bufs_sub .., unary_bufs_sub .., binary_bufs_sub .., binary_bufs_sub .., binary_bufs_sub .., nullary_bufs_sub ..,
    binary_bufs_sub .., binary_bufs_sub .., unary_bufs_sub .., unary_bufs_sub .., binary_bufs_sub .., unary_bufs_sub ..,
    unary_bufs_sub .., binary_bufs_sub .., binary_bufs_sub .., binary_bufs_sub .., nullary_bufs_sub .., binary_bufs_sub ..,
    nullary_bufs_sub .., nullary_bufs_sub .., binary_bufs_sub .., binary_bufs_sub .., nullary_bufs_sub .., binary_bufs_sub ..,
    binary_bufs_sub .., binary_bufs_sub ..⟩

theorem ops0_fresh : (ops0 : List (HloOp τ sig (Elt F))).Forall fun op => op.fresh = ∅ := by
  simp only [List.Forall]; repeat' constructor

theorem ops1_fresh : (ops1 : List (HloOp τ sig (Elt F))).Forall fun op => op.fresh = ∅ := by
  simp only [List.Forall]; repeat' constructor

theorem ops2_fresh : (ops2 : List (HloOp τ sig (Elt F))).Forall fun op => op.fresh = ∅ := by
  simp only [List.Forall]; repeat' constructor

theorem ops3_fresh : (ops3 : List (HloOp τ sig (Elt F))).Forall fun op => op.fresh = ∅ := by
  simp only [List.Forall]; repeat' constructor

/-- The whole program's operations, in order. -/
abbrev ops : List (HloOp τ sig (Elt F)) := ops0 ++ (ops1 ++ (ops2 ++ ops3))

/-- @main is the line of its operations. -/
theorem main_eq (d : Dev nD) : main (F := F) d = seq ops := by
  unfold main
  simp only [part0_eq, part1_eq, part2_eq, part3_eq, ops, seq_append]

/-- A property of every operation of each window holds of every operation of the program. -/
theorem forall_ops {p : HloOp τ sig (Elt F) → Prop} (h0 : (ops0 : List (HloOp τ sig (Elt F))).Forall p)
    (h1 : (ops1 : List (HloOp τ sig (Elt F))).Forall p) (h2 : (ops2 : List (HloOp τ sig (Elt F))).Forall p)
    (h3 : (ops3 : List (HloOp τ sig (Elt F))).Forall p) : ∀ op ∈ (ops : List (HloOp τ sig (Elt F))), p op := by
  intro op h
  simp only [ops, List.mem_append] at h
  rcases h with h | h | h | h
  · exact List.forall_iff_forall_mem.mp h0 op h
  · exact List.forall_iff_forall_mem.mp h1 op h
  · exact List.forall_iff_forall_mem.mp h2 op h
  · exact List.forall_iff_forall_mem.mp h3 op h

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every buffer ends
    at what the operations, in order, leave in it from the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq
    (fun _ => List.forall_iff_forall_mem.mpr (forall_ops ops0_sub ops1_sub ops2_sub ops3_sub)) m ρ
    (fun _ => forall_ops ops0_fresh ops1_fresh ops2_fresh ops3_fresh)

end Cert.ReferenceIdeal.Hand

end
-- ==== Proof.RefStages.lean ====
/-
  The reference program's arithmetic, stage by stage, for any float values.

  The reference works on whole 65536 × 7 × 7 × 1 arrays. From an argument it cuts a box (four of the thirty
  numbers of every cell), from a box its four columns; a box's corners are centre ∓ half the extent, where the
  half is the extent DIVIDED by the word for two. Two boxes overlap on each axis by the clipped difference of
  the lesser upper corner and the greater lower corner (clipped at zero: the maximum of a broadcast zero, made
  from the integer zero, and the difference, in that order). The overlap ratio is the product of the two
  overlaps over (|area a| + |area b| - product + ε). The pick is 1 where the second box's ratio is strictly
  the greater. From these: the objectness, the two no-object and the class terms, each a square written as a
  product; the four whole-array sums from the zero word; and the total
  ((5·0 + Σobj) + ½·(Σno1 + Σno2)) + Σcls, every constant the word the program prints.

  Each stage is a definition, so that what the program's buffers hold can be stated, and composed, over names.
-/
import proofs.«102790_j13443247636702_1_alg».proof.Proof.Gen.ReferenceIdeal

noncomputable section

namespace Cert.ReferenceIdeal.Hand

open Cert.ReferenceIdeal Cert.ReferenceIdeal.Gen Idealize.ShloMosaic

/-- Whole arrays of the program's five shapes. -/
abbrev V30 (F : FTy → Type) : Type := FVec F S65536x7x7x30 .f32
abbrev V20 (F : FTy → Type) : Type := FVec F S65536x7x7x20 .f32
abbrev V4 (F : FTy → Type) : Type := FVec F S65536x7x7x4 .f32
abbrev V1 (F : FTy → Type) : Type := FVec F S65536x7x7x1 .f32
abbrev V0 (F : FTy → Type) : Type := FVec F S_ .f32

variable {F : FTy → Type} [FloatOps F]

/-! ## Cuts and broadcasts -/

/-- Entries 21..24 of every cell: the first box. -/
def box21 (X : V30 F) : V4 F :=
  extractStridedSlice S65536x7x7x4 ![0, 0, 0, 21] X slices_S65536x7x7x30_S65536x7x7x4_0_0_0_21
/-- Entries 26..29 of every cell: the second box. -/
def box26 (X : V30 F) : V4 F :=
  extractStridedSlice S65536x7x7x4 ![0, 0, 0, 26] X slices_S65536x7x7x30_S65536x7x7x4_0_0_0_26
/-- The four columns of a box. -/
def co0 (B : V4 F) : V1 F := extractStridedSlice S65536x7x7x1 ![0, 0, 0, 0] B slices_S65536x7x7x4_S65536x7x7x1_0_0_0_0
def co1 (B : V4 F) : V1 F := extractStridedSlice S65536x7x7x1 ![0, 0, 0, 1] B slices_S65536x7x7x4_S65536x7x7x1_0_0_0_1
def co2 (B : V4 F) : V1 F := extractStridedSlice S65536x7x7x1 ![0, 0, 0, 2] B slices_S65536x7x7x4_S65536x7x7x1_0_0_0_2
def co3 (B : V4 F) : V1 F := extractStridedSlice S65536x7x7x1 ![0, 0, 0, 3] B slices_S65536x7x7x4_S65536x7x7x1_0_0_0_3
/-- Entry 20 and entry 29 of every cell. -/
def ent20 (X : V30 F) : V1 F :=
  extractStridedSlice S65536x7x7x1 ![0, 0, 0, 20] X slices_S65536x7x7x30_S65536x7x7x1_0_0_0_20
def ent29 (X : V30 F) : V1 F :=
  extractStridedSlice S65536x7x7x1 ![0, 0, 0, 29] X slices_S65536x7x7x30_S65536x7x7x1_0_0_0_29
/-- Entries 0..19 of every cell: the class scores. -/
def cls (X : V30 F) : V20 F :=
  extractStridedSlice S65536x7x7x20 ![0, 0, 0, 0] X slices_S65536x7x7x30_S65536x7x7x20_0_0_0_0
/-- A scalar spread over every cell; a per-cell number spread over the twenty classes. -/
def bc {α : Type} (c : S_.Idx → α) : S65536x7x7x1.Idx → α := broadcastInDim S65536x7x7x1 ![] bcast_S_S65536x7x7x1 c
def bc20 (e : V1 F) : V20 F :=
  broadcastInDim S65536x7x7x20 ![0, 1, 2, 3] bcast_S65536x7x7x1_S65536x7x7x20_0_1_2_3 e

/-! ## Corners, overlaps, ratio -/

/-- Half an extent: the extent divided by the word for two. -/
def halfOf (e : V1 F) : V1 F := Host.divf e (bc (constant S_ .f32 0x40000000#32))
/-- Lower and upper corner from centre and extent. -/
def lo (c e : V1 F) : V1 F := subf c (halfOf e)
def hi (c e : V1 F) : V1 F := addf c (halfOf e)
/-- A box's four corners. -/
def x1 (B : V4 F) : V1 F := lo (co0 B) (co2 B)
def y1 (B : V4 F) : V1 F := lo (co1 B) (co3 B)
def x2 (B : V4 F) : V1 F := hi (co0 B) (co2 B)
def y2 (B : V4 F) : V1 F := hi (co1 B) (co3 B)
/-- Clipping at zero: the maximum of the broadcast zero (the integer zero converted) and the operand. -/
def clip0 (x : V1 F) : V1 F := maximumf (bc (sitofp .f32 (constantI S_ 32 0#32))) x
/-- The overlap of two intervals given their upper and their lower ends. -/
def side (h1 h2 l1 l2 : V1 F) : V1 F := clip0 (subf (minimumf h1 h2) (maximumf l1 l2))
/-- A box's area from its corners, in absolute value. -/
def areaOf (ax1 ay1 ax2 ay2 : V1 F) : V1 F := Host.absf (mulf (subf ax2 ax1) (subf ay2 ay1))
/-- The overlap ratio from the two side overlaps and the eight corners. -/
def ratioOf (sx sy ax1 ay1 ax2 ay2 bx1 by1 bx2 by2 : V1 F) : V1 F :=
  Host.divf (mulf sx sy)
    (addf (subf (addf (areaOf ax1 ay1 ax2 ay2) (areaOf bx1 by1 bx2 by2)) (mulf sx sy))
      (bc (constant S_ .f32 0x358637BD#32)))
/-- The overlap ratio of a box with another. -/
def iouOf (A B : V4 F) : V1 F :=
  ratioOf (side (x2 A) (x2 B) (x1 A) (x1 B)) (side (y2 A) (y2 B) (y1 A) (y1 B))
    (x1 A) (y1 A) (x2 A) (y2 A) (x1 B) (y1 B) (x2 B) (y2 B)

/-! ## Pick and the four terms -/

/-- 1 where the first ratio given is strictly greater than the second, else 0. -/
def pickOf (r2 r1 : V1 F) : V1 F := uitofp .f32 (cmpf .ogt r2 r1)
/-- The word for one, everywhere. -/
def oneV : V1 F := bc (constant S_ .f32 0x3F800000#32)
/-- A difference times itself. -/
def sqDiff {s : Shape} (a b : FVec F s .f32) : FVec F s .f32 := mulf (subf a b) (subf a b)
/-- The objectness term from the pick, the target's entry 20 and the prediction's entries 20 and 29. -/
def objTerm (k e p20 p29 : V1 F) : V1 F :=
  sqDiff (mulf e (addf (mulf (subf oneV k) p20) (mulf k p29))) (mulf e e)
/-- A no-object term from one minus the target's entry 20, a predicted confidence and that entry. -/
def noTerm (ne p e : V1 F) : V1 F := sqDiff (mulf ne p) (mulf ne e)
/-- The class term from the target's entry 20 and the two class blocks. -/
def clsTerm (e : V1 F) (P T : V20 F) : V20 F := sqDiff (mulf (bc20 e) P) (mulf (bc20 e) T)

/-! ## Sums and the total -/

/-- The sum of all entries, from the zero word. -/
def sumAll1 (x : V1 F) : V0 F :=
  Host.reduceAdd x (constant S_ .f32 0x00000000#32) reducesTo_S65536x7x7x1_S_d0_1_2_3 h_S_
def sumAll20 (x : V20 F) : V0 F :=
  Host.reduceAdd x (constant S_ .f32 0x00000000#32) reducesTo_S65536x7x7x20_S_d0_1_2_3 h_S_
/-- The total of the four sums, as the program adds them. -/
def total (sObj sNo1 sNo2 sCls : V0 F) : V0 F :=
  addf (addf (addf (mulf (constant S_ .f32 0x40A00000#32) (constant S_ .f32 0x00000000#32)) sObj)
    (mulf (constant S_ .f32 0x3F000000#32) (addf sNo1 sNo2))) sCls

/-! ## The whole reference, as one function of the two arguments -/

/-- The pick array. -/
def pickV (X0 X1 : V30 F) : V1 F := pickOf (iouOf (box26 X0) (box21 X1)) (iouOf (box21 X0) (box21 X1))
/-- One minus the target's entry 20. -/
def noE (X1 : V30 F) : V1 F := subf oneV (ent20 X1)
def objV (X0 X1 : V30 F) : V1 F := objTerm (pickV X0 X1) (ent20 X1) (ent20 X0) (ent29 X0)
def no1V (X0 X1 : V30 F) : V1 F := noTerm (noE X1) (ent20 X0) (ent20 X1)
def no2V (X0 X1 : V30 F) : V1 F := noTerm (noE X1) (ent29 X0) (ent20 X1)
def clsV (X0 X1 : V30 F) : V20 F := clsTerm (ent20 X1) (cls X0) (cls X1)
/-- What the reference returns. -/
def lossStage (X0 X1 : V30 F) : V0 F :=
  total (sumAll1 (objV X0 X1)) (sumAll1 (no1V X0 X1)) (sumAll1 (no2V X0 X1)) (sumAll20 (clsV X0 X1))

end Cert.ReferenceIdeal.Hand

end
-- ==== Proof.RefRead0.lean ====
/-
  What the first window leaves.

  From the two arguments the first window computes the four corners of the first predicted box and of the target
  box, and the two clipped side overlaps of that pair. Each of these ten buffers holds the named stage of the
  arguments; the arguments themselves are not written.
-/
import proofs.«102790_j13443247636702_1_alg».proof.Proof.RefProgram
import proofs.«102790_j13443247636702_1_alg».proof.Proof.RefStages

noncomputable section

namespace Cert.ReferenceIdeal.Hand

open Cert.ReferenceIdeal Cert.ReferenceIdeal.Gen Idealize.ShloMosaic Idealize.ShloMosaic.StableHlo

variable {F : FTy → Type} [FloatOps F] (W : Valuation τ sig (Elt F))

/-- What a valuation holds at a buffer of the program. -/
local macro "rd%" W:ident b:ident : term => `($W (Proc.devRef .tc $b))

theorem w0_v6 : after ops0 W (Proc.devRef .tc main_v6) = x1 (box21 (rd% W main_arg0)) := by after_results_simp <;> (try simp only [TRef.ofBuf, TRef.toBuf, cast_eq]) <;> rfl
theorem w0_v11 : after ops0 W (Proc.devRef .tc main_v11) = y1 (box21 (rd% W main_arg0)) := by after_results_simp <;> (try simp only [TRef.ofBuf, TRef.toBuf, cast_eq]) <;> rfl
theorem w0_v16 : after ops0 W (Proc.devRef .tc main_v16) = x2 (box21 (rd% W main_arg0)) := by after_results_simp <;> (try simp only [TRef.ofBuf, TRef.toBuf, cast_eq]) <;> rfl
theorem w0_v21 : after ops0 W (Proc.devRef .tc main_v21) = y2 (box21 (rd% W main_arg0)) := by after_results_simp <;> (try simp only [TRef.ofBuf, TRef.toBuf, cast_eq]) <;> rfl
theorem w0_v26 : after ops0 W (Proc.devRef .tc main_v26) = x1 (box21 (rd% W main_arg1)) := by after_results_simp <;> (try simp only [TRef.ofBuf, TRef.toBuf, cast_eq]) <;> rfl
theorem w0_v31 : after ops0 W (Proc.devRef .tc main_v31) = y1 (box21 (rd% W main_arg1)) := by after_results_simp <;> (try simp only [TRef.ofBuf, TRef.toBuf, cast_eq]) <;> rfl
theorem w0_v36 : after ops0 W (Proc.devRef .tc main_v36) = x2 (box21 (rd% W main_arg1)) := by after_results_simp <;> (try simp only [TRef.ofBuf, TRef.toBuf, cast_eq]) <;> rfl
theorem w0_v41 : after ops0 W (Proc.devRef .tc main_v41) = y2 (box21 (rd% W main_arg1)) := by after_results_simp <;> (try simp only [TRef.ofBuf, TRef.toBuf, cast_eq]) <;> rfl
theorem w0_v47 : after ops0 W (Proc.devRef .tc main_v47)
    = side (x2 (box21 (rd% W main_arg0))) (x2 (box21 (rd% W main_arg1))) (x1 (box21 (rd% W main_arg0))) (x1 (box21 (rd% W main_arg1))) := by after_results_simp <;> (try simp only [TRef.ofBuf, TRef.toBuf, cast_eq]) <;> rfl
theorem w0_v49 : after ops0 W (Proc.devRef .tc main_v49)
    = side (y2 (box21 (rd% W main_arg0))) (y2 (box21 (rd% W main_arg1))) (y1 (box21 (rd% W main_arg0))) (y1 (box21 (rd% W main_arg1))) := by after_results_simp <;> (try simp only [TRef.ofBuf, TRef.toBuf, cast_eq]) <;> rfl
theorem w0_arg0 : after ops0 W (Proc.devRef .tc main_arg0) = rd% W main_arg0 := by after_results_simp
theorem w0_arg1 : after ops0 W (Proc.devRef .tc main_arg1) = rd% W main_arg1 := by after_results_simp

end Cert.ReferenceIdeal.Hand

end
-- ==== Proof.RefRead1.lean ====
/-
  What the second window leaves.

  From the ten buffers of the first window it computes the first overlap ratio; from the arguments the target box
  again, the corners of the second predicted box, three corners of the target box and the column the fourth is
  made from.
-/
import proofs.«102790_j13443247636702_1_alg».proof.Proof.RefProgram
import proofs.«102790_j13443247636702_1_alg».proof.Proof.RefStages

noncomputable section

namespace Cert.ReferenceIdeal.Hand

open Cert.ReferenceIdeal Cert.ReferenceIdeal.Gen Idealize.ShloMosaic Idealize.ShloMosaic.StableHlo

variable {F : FTy → Type} [FloatOps F] (W : Valuation τ sig (Elt F))

/-- What a valuation holds at a buffer of the program. -/
local macro "rd%" W:ident b:ident : term => `($W (Proc.devRef .tc $b))

theorem w1_v63 : after ops1 W (Proc.devRef .tc main_v63)
    = ratioOf (rd% W main_v47) (rd% W main_v49) (rd% W main_v6) (rd% W main_v11) (rd% W main_v16) (rd% W main_v21)
        (rd% W main_v26) (rd% W main_v31) (rd% W main_v36) (rd% W main_v41) := by after_results_simp <;> (try simp only [TRef.ofBuf, TRef.toBuf, cast_eq]) <;> rfl
theorem w1_v65 : after ops1 W (Proc.devRef .tc main_v65) = box21 (rd% W main_arg1) := by after_results_simp <;> (try simp only [TRef.ofBuf, TRef.toBuf, cast_eq]) <;> rfl
theorem w1_v70 : after ops1 W (Proc.devRef .tc main_v70) = x1 (box26 (rd% W main_arg0)) := by after_results_simp <;> (try simp only [TRef.ofBuf, TRef.toBuf, cast_eq]) <;> rfl
theorem w1_v75 : after ops1 W (Proc.devRef .tc main_v75) = y1 (box26 (rd% W main_arg0)) := by after_results_simp <;> (try simp only [TRef.ofBuf, TRef.toBuf, cast_eq]) <;> rfl
theorem w1_v80 : after ops1 W (Proc.devRef .tc main_v80) = x2 (box26 (rd% W main_arg0)) := by after_results_simp <;> (try simp only [TRef.ofBuf, TRef.toBuf, cast_eq]) <;> rfl
theorem w1_v85 : after ops1 W (Proc.devRef .tc main_v85) = y2 (box26 (rd% W main_arg0)) := by after_results_simp <;> (try simp only [TRef.ofBuf, TRef.toBuf, cast_eq]) <;> rfl
theorem w1_v90 : after ops1 W (Proc.devRef .tc main_v90) = x1 (box21 (rd% W main_arg1)) := by after_results_simp <;> (try simp only [TRef.ofBuf, TRef.toBuf, cast_eq]) <;> rfl
theorem w1_v95 : after ops1 W (Proc.devRef .tc main_v95) = y1 (box21 (rd% W main_arg1)) := by after_results_simp <;> (try simp only [TRef.ofBuf, TRef.toBuf, cast_eq]) <;> rfl
theorem w1_v100 : after ops1 W (Proc.devRef .tc main_v100) = x2 (box21 (rd% W main_arg1)) := by after_results_simp <;> (try simp only [TRef.ofBuf, TRef.toBuf, cast_eq]) <;> rfl
theorem w1_v101 : after ops1 W (Proc.devRef .tc main_v101) = co1 (box21 (rd% W main_arg1)) := by after_results_simp <;> (try simp only [TRef.ofBuf, TRef.toBuf, cast_eq]) <;> rfl
theorem w1_arg0 : after ops1 W (Proc.devRef .tc main_arg0) = rd% W main_arg0 := by after_results_simp
theorem w1_arg1 : after ops1 W (Proc.devRef .tc main_arg1) = rd% W main_arg1 := by after_results_simp

end Cert.ReferenceIdeal.Hand

end
-- ==== Proof.RefRead2.lean ====
/-
  What the third window leaves.

  It finishes the target box's last corner, takes the second overlap ratio and the pick, and sums the objectness
  terms and the first no-object terms; it also leaves one minus the target's entry 20, that entry, and the
  prediction's entry 29 for the last window.
-/
import proofs.«102790_j13443247636702_1_alg».proof.Proof.RefProgram
import proofs.«102790_j13443247636702_1_alg».proof.Proof.RefStages

noncomputable section

namespace Cert.ReferenceIdeal.Hand

open Cert.ReferenceIdeal Cert.ReferenceIdeal.Gen Idealize.ShloMosaic Idealize.ShloMosaic.StableHlo

variable {F : FTy → Type} [FloatOps F] (W : Valuation τ sig (Elt F))

/-- What a valuation holds at a buffer of the program. -/
local macro "rd%" W:ident b:ident : term => `($W (Proc.devRef .tc $b))

/-- The target box's upper y corner, from the column the second window left and the box. -/
def w2y2 (W : Valuation τ sig (Elt F)) : V1 F := hi (rd% W main_v101) (co3 (rd% W main_v65))

/-- The second overlap ratio from what the second window left. -/
def w2ratio (W : Valuation τ sig (Elt F)) : V1 F :=
  ratioOf (side (rd% W main_v80) (rd% W main_v100) (rd% W main_v70) (rd% W main_v90))
    (side (rd% W main_v85) (w2y2 W) (rd% W main_v75) (rd% W main_v95))
    (rd% W main_v70) (rd% W main_v75) (rd% W main_v80) (rd% W main_v85) (rd% W main_v90) (rd% W main_v95) (rd% W main_v100) (w2y2 W)

set_option maxHeartbeats 4000000 in  -- the deepest chain of the window: the pick over two ratio chains
theorem w2_v143 : after ops2 W (Proc.devRef .tc main_v143)
    = sumAll1 (objTerm (pickOf (w2ratio W) (rd% W main_v63)) (ent20 (rd% W main_arg1)) (ent20 (rd% W main_arg0)) (ent29 (rd% W main_arg0))) := by after_results_simp <;> (try simp only [TRef.ofBuf, TRef.toBuf, cast_eq]) <;> rfl
theorem w2_v152 : after ops2 W (Proc.devRef .tc main_v152)
    = sumAll1 (noTerm (subf oneV (ent20 (rd% W main_arg1))) (ent20 (rd% W main_arg0)) (ent20 (rd% W main_arg1))) := by after_results_simp <;> (try simp only [TRef.ofBuf, TRef.toBuf, cast_eq]) <;> rfl
theorem w2_v145 : after ops2 W (Proc.devRef .tc main_v145) = subf oneV (ent20 (rd% W main_arg1)) := by after_results_simp <;> (try simp only [TRef.ofBuf, TRef.toBuf, cast_eq]) <;> rfl
theorem w2_v153 : after ops2 W (Proc.devRef .tc main_v153) = ent29 (rd% W main_arg0) := by after_results_simp <;> (try simp only [TRef.ofBuf, TRef.toBuf, cast_eq]) <;> rfl
theorem w2_v130 : after ops2 W (Proc.devRef .tc main_v130) = ent20 (rd% W main_arg1) := by after_results_simp <;> (try simp only [TRef.ofBuf, TRef.toBuf, cast_eq]) <;> rfl
theorem w2_arg0 : after ops2 W (Proc.devRef .tc main_arg0) = rd% W main_arg0 := by after_results_simp
theorem w2_arg1 : after ops2 W (Proc.devRef .tc main_arg1) = rd% W main_arg1 := by after_results_simp

end Cert.ReferenceIdeal.Hand

end
-- ==== Proof.RefRead3.lean ====
/-
  What the last window leaves.

  It sums the second no-object terms and the class terms and adds the four sums up into the result.
-/
import proofs.«102790_j13443247636702_1_alg».proof.Proof.RefProgram
import proofs.«102790_j13443247636702_1_alg».proof.Proof.RefStages

noncomputable section

namespace Cert.ReferenceIdeal.Hand

open Cert.ReferenceIdeal Cert.ReferenceIdeal.Gen Idealize.ShloMosaic Idealize.ShloMosaic.StableHlo

variable {F : FTy → Type} [FloatOps F] (W : Valuation τ sig (Elt F))

/-- What a valuation holds at a buffer of the program. -/
local macro "rd%" W:ident b:ident : term => `($W (Proc.devRef .tc $b))

theorem w3_v174 : after ops3 W (Proc.devRef .tc main_v174)
    = total (rd% W main_v143) (rd% W main_v152)
        (sumAll1 (noTerm (rd% W main_v145) (rd% W main_v153) (ent20 (rd% W main_arg1))))
        (sumAll20 (clsTerm (rd% W main_v130) (cls (rd% W main_arg0)) (cls (rd% W main_arg1)))) := by after_results_simp <;> (try simp only [TRef.ofBuf, TRef.toBuf, cast_eq]) <;> rfl
theorem w3_arg0 : after ops3 W (Proc.devRef .tc main_arg0) = rd% W main_arg0 := by after_results_simp
theorem w3_arg1 : after ops3 W (Proc.devRef .tc main_arg1) = rd% W main_arg1 := by after_results_simp

end Cert.ReferenceIdeal.Hand

end
-- ==== Proof.RefCompose.lean ====
/-
  What the whole reference leaves, from its four windows.

  The program's operations are the four windows' one after the other, so what a buffer holds at the end is the
  last window's reading of what the third left, and so on down to the launch contents. Every buffer a later
  window reads was stated over names by the window that wrote it; put together, the result buffer holds the
  reference's value of the two arguments, and the arguments are never written.
-/
import proofs.«102790_j13443247636702_1_alg».proof.Proof.RefRead0
import proofs.«102790_j13443247636702_1_alg».proof.Proof.RefRead1
import proofs.«102790_j13443247636702_1_alg».proof.Proof.RefRead2
import proofs.«102790_j13443247636702_1_alg».proof.Proof.RefRead3

noncomputable section

namespace Cert.ReferenceIdeal.Hand

open Cert.ReferenceIdeal Cert.ReferenceIdeal.Gen Idealize.ShloMosaic Idealize.ShloMosaic.StableHlo

variable {F : FTy → Type} [FloatOps F] (V : Valuation τ sig (Elt F))

/-- The whole line read window by window. -/
theorem after_ops_split : after ops V = after ops3 (after ops2 (after ops1 (after ops0 V))) := by
  show after (ops0 ++ (ops1 ++ (ops2 ++ ops3))) V = _
  rw [Cert.LibSeqLine.after_append, Cert.LibSeqLine.after_append, Cert.LibSeqLine.after_append]

/-- The first argument is never written. -/
theorem after_ops_arg0 : after ops V (Proc.devRef .tc main_arg0) = V (Proc.devRef .tc main_arg0) := by
  rw [after_ops_split, w3_arg0, w2_arg0, w1_arg0, w0_arg0]

/-- The second argument is never written. -/
theorem after_ops_arg1 : after ops V (Proc.devRef .tc main_arg1) = V (Proc.devRef .tc main_arg1) := by
  rw [after_ops_split, w3_arg1, w2_arg1, w1_arg1, w0_arg1]

/-- The result buffer ends at the reference's value of the two arguments. -/
theorem after_ops_v174 :
    after ops V (Proc.devRef .tc main_v174)
      = lossStage (V (Proc.devRef .tc main_arg0)) (V (Proc.devRef .tc main_arg1)) := by
  rw [after_ops_split, w3_v174]
  rw [w2_v143, w2_v152, w2_v145, w2_v153, w2_v130, w2_arg0, w2_arg1]
  unfold w2ratio w2y2
  rw [w1_v63, w1_v65, w1_v70, w1_v75, w1_v80, w1_v85, w1_v90, w1_v95, w1_v100, w1_v101, w1_arg0, w1_arg1]
  rw [w0_v6, w0_v11, w0_v16, w0_v21, w0_v26, w0_v31, w0_v36, w0_v41, w0_v47, w0_v49, w0_arg0, w0_arg1]
  rfl

end Cert.ReferenceIdeal.Hand

end
-- ==== Proof.RefIndex.lean ====
/-
  The reference's stages read at one cell, on the extended reals.

  At the ideal instance every stage is pointwise: a cut reads the source at a shifted last coordinate, a
  broadcast reads its operand, and the arithmetic is the extended reals'. Dividing an extent by the word for two
  is multiplying by one half; the maximum of zero (the integer zero converted) and a difference is the maximum of
  the difference and zero. So at the cell with grid coordinates (n, i, j) the overlap ratio, the pick and the
  four terms are the cell terms of the thirty predicted and thirty target numbers of that cell.
-/
import proofs.«102790_j13443247636702_1_alg».proof.Proof.RefStages
import proofs.«102790_j13443247636702_1_alg».proof.Proof.CellTerms
import proofs.«102790_j13443247636702_1_alg».proof.Proof.Cells
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Idealize.ShloMosaic Idealize.ShloMosaic.ValueIdx Cert.Yolo

/-! ## A cut along the last axis of a rank-4 array -/

/-- A rank-4 array cut along its last axis from o reads, at (a, b, c, j), the source at (a, b, c, k) with k = o + j. -/
theorem slice4_axis3_apply {α : Type} {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-! ## The cuts and broadcasts of this program at a cell -/

section Cuts

variable (X : V30 Ideal) (B : V4 Ideal) (n : Fin 65536) (i j : Fin 7)

theorem box21_apply (k : Fin 4) :
    box21 X (ix4 n i j k) = X (ix4 n i j (⟨21 + k.val, by have := k.isLt; omega⟩ : Fin 30)) := by
  unfold box21; exact slice4_axis3_apply 21 X _ n i j k _ rfl
theorem box26_apply (k : Fin 4) :
    box26 X (ix4 n i j k) = X (ix4 n i j (⟨26 + k.val, by have := k.isLt; omega⟩ : Fin 30)) := by
  unfold box26; exact slice4_axis3_apply 26 X _ n i j k _ rfl
theorem co0_apply : co0 B (ix4 n i j (0 : Fin 1)) = B (ix4 n i j (⟨0, by norm_num⟩ : Fin 4)) := by
  unfold co0; exact slice4_axis3_apply 0 B _ n i j 0 _ rfl
theorem co1_apply : co1 B (ix4 n i j (0 : Fin 1)) = B (ix4 n i j (⟨1, by norm_num⟩ : Fin 4)) := by
  unfold co1; exact slice4_axis3_apply 1 B _ n i j 0 _ rfl
theorem co2_apply : co2 B (ix4 n i j (0 : Fin 1)) = B (ix4 n i j (⟨2, by norm_num⟩ : Fin 4)) := by
  unfold co2; exact slice4_axis3_apply 2 B _ n i j 0 _ rfl
theorem co3_apply : co3 B (ix4 n i j (0 : Fin 1)) = B (ix4 n i j (⟨3, by norm_num⟩ : Fin 4)) := by
  unfold co3; exact slice4_axis3_apply 3 B _ n i j 0 _ rfl
theorem ent20_apply : ent20 X (ix4 n i j (0 : Fin 1)) = X (ix4 n i j (⟨20, by norm_num⟩ : Fin 30)) := by
  unfold ent20; exact slice4_axis3_apply 20 X _ n i j 0 _ rfl
theorem ent29_apply : ent29 X (ix4 n i j (0 : Fin 1)) = X (ix4 n i j (⟨29, by norm_num⟩ : Fin 30)) := by
  unfold ent29; exact slice4_axis3_apply 29 X _ n i j 0 _ rfl
theorem cls_apply (k : Fin 20) :
    cls X (ix4 n i j k) = X (ix4 n i j (⟨k.val, by have := k.isLt; omega⟩ : Fin 30)) := by
  unfold cls; exact slice4_axis3_apply 0 X _ n i j k _ (Nat.zero_add _).symm
/-- A per-cell number spread over the classes reads the cell's number. -/
theorem bc20_apply (e : V1 Ideal) (k : Fin 20) : bc20 e (ix4 n i j k) = e (ix4 n i j (0 : Fin 1)) := by
  unfold bc20
  refine broadcastInDim_apply _ _ e _ _ (fun a => ?_)
  match a with
  | ⟨0, _⟩ => rfl
  | ⟨1, _⟩ => rfl
  | ⟨2, _⟩ => rfl
  | ⟨3, _⟩ => rfl

end Cuts

/-! ## The arithmetic stages at an index -/

section Pointwise

variable (idx : S65536x7x7x1.Idx)

/-- The integer zero converted is zero. -/
theorem sitofp_zero : (((0#32 : BitVec 32).toInt : ℝ) : EReal) = 0 := by simp

theorem lo_apply (c e : V1 Ideal) : lo c e idx = c idx - e idx * halfE := by
  show c idx - Ideal.div (e idx) (Ideal.ofBits .f32 0x40000000#32) = _
  rw [div_two]
theorem hi_apply (c e : V1 Ideal) : hi c e idx = c idx + e idx * halfE := by
  show c idx + Ideal.div (e idx) (Ideal.ofBits .f32 0x40000000#32) = _
  rw [div_two]
theorem clip0_apply (x : V1 Ideal) : clip0 x idx = max (x idx) 0 := by
  show max (((0#32 : BitVec 32).toInt : ℝ) : EReal) (x idx) = _
  rw [sitofp_zero, max_comm]
theorem side_apply (h1 h2 l1 l2 : V1 Ideal) :
    side h1 h2 l1 l2 idx = max (min (h1 idx) (h2 idx) - max (l1 idx) (l2 idx)) 0 := by
  unfold side; rw [clip0_apply]; rfl
theorem areaOf_apply (ax1 ay1 ax2 ay2 : V1 Ideal) :
    areaOf ax1 ay1 ax2 ay2 idx = absE ((ax2 idx - ax1 idx) * (ay2 idx - ay1 idx)) := rfl
theorem ratioOf_apply (sx sy ax1 ay1 ax2 ay2 bx1 by1 bx2 by2 : V1 Ideal) :
    ratioOf sx sy ax1 ay1 ax2 ay2 bx1 by1 bx2 by2 idx
      = Ideal.div (sx idx * sy idx)
          (areaOf ax1 ay1 ax2 ay2 idx + areaOf bx1 by1 bx2 by2 idx - sx idx * sy idx + epsE) := rfl

/-- The overlap ratio at an index is the ratio of the two boxes' columns there. -/
theorem iouOf_apply (A B : V4 Ideal) :
    iouOf A B idx = iou (co0 A idx) (co1 A idx) (co2 A idx) (co3 A idx) (co0 B idx) (co1 B idx) (co2 B idx) (co3 B idx) := by
  unfold iouOf x1 y1 x2 y2
  simp only [ratioOf_apply, side_apply, areaOf_apply, lo_apply, hi_apply]
  rfl

theorem pickOf_apply (r2 r1 : V1 Ideal) : pickOf r2 r1 idx = pick (r2 idx) (r1 idx) := rfl
theorem oneV_apply : oneV (F := Ideal) idx = oneE := rfl
theorem objTerm_apply (k e p20 p29 : V1 Ideal) :
    objTerm k e p20 p29 idx
      = (e idx * ((oneE - k idx) * p20 idx + k idx * p29 idx) - e idx * e idx)
        * (e idx * ((oneE - k idx) * p20 idx + k idx * p29 idx) - e idx * e idx) := rfl
theorem noTerm_apply (ne p e : V1 Ideal) :
    noTerm ne p e idx = (ne idx * p idx - ne idx * e idx) * (ne idx * p idx - ne idx * e idx) := rfl
theorem noE_apply (X1 : V30 Ideal) : noE X1 idx = oneE - ent20 X1 idx := rfl

end Pointwise

/-! ## The four terms at a cell -/

/-- The thirty numbers of the cell at grid coordinates (n, i, j). -/
def cellOf (X : V30 Ideal) (n : Fin 65536) (i j : Fin 7) : Fin 30 → EReal := fun k => X (ix4 n i j k)

/-- That cell is cell number (n·7 + i)·7 + j. -/
theorem cellOf_eq (X : V30 Ideal) (n : Fin 65536) (i j : Fin 7) :
    cellOf X n i j = cellAt X ((n.val * 7 + i.val) * 7 + j.val) :=
  funext fun k => (cellAt_flat X n i j k).symm

section Cells

variable (X0 X1 : V30 Ideal) (n : Fin 65536) (i j : Fin 7)

theorem pickV_cell : pickV X0 X1 (ix4 n i j (0 : Fin 1)) = pickCell (cellOf X0 n i j) (cellOf X1 n i j) := by
  unfold pickV pickCell
  rw [pickOf_apply, iouOf_apply, iouOf_apply]
  simp only [co0_apply, co1_apply, co2_apply, co3_apply, box21_apply, box26_apply]
  rfl

theorem objV_cell : objV X0 X1 (ix4 n i j (0 : Fin 1)) = rowObj (cellOf X0 n i j) (cellOf X1 n i j) := by
  unfold objV rowObj
  rw [objTerm_apply, pickV_cell, ent20_apply, ent20_apply, ent29_apply]
  rfl

theorem no1V_cell : no1V X0 X1 (ix4 n i j (0 : Fin 1)) = rowNo1 (cellOf X0 n i j) (cellOf X1 n i j) := by
  unfold no1V rowNo1
  rw [noTerm_apply, noE_apply, ent20_apply, ent20_apply]
  rfl

theorem no2V_cell : no2V X0 X1 (ix4 n i j (0 : Fin 1)) = rowNo2 (cellOf X0 n i j) (cellOf X1 n i j) := by
  unfold no2V rowNo2
  rw [noTerm_apply, noE_apply, ent20_apply, ent29_apply]
  rfl

theorem clsV_cell (k : Fin 20) : clsV X0 X1 (ix4 n i j k) = rowCls (cellOf X0 n i j) (cellOf X1 n i j) k := by
  unfold clsV clsTerm rowCls
  show (bc20 (ent20 X1) (ix4 n i j k) * cls X0 (ix4 n i j k) - bc20 (ent20 X1) (ix4 n i j k) * cls X1 (ix4 n i j k))
      * (bc20 (ent20 X1) (ix4 n i j k) * cls X0 (ix4 n i j k) - bc20 (ent20 X1) (ix4 n i j k) * cls X1 (ix4 n i j k)) = _
  rw [bc20_apply, ent20_apply, cls_apply, cls_apply]
  rfl

end Cells

end Cert.ReferenceIdeal.Hand

end
-- ==== Proof.RefSums.lean ====
/-
  The reference's four sums and its total, on the extended reals.

  A whole-array sum from the zero word is the sum over every index; over a 65536 × 7 × 7 × 1 (or × 20) array that
  is the sum over the grid coordinates (n, i, j) (and the class), and, cell (n, i, j) being cell number
  (n·7 + i)·7 + j, the sum over the first 3211264 naturals of the cell terms. The total drops the product with
  the zero word and is the objectness sum plus one half of the two no-object sums plus the class sum.
-/
import proofs.«102790_j13443247636702_1_alg».proof.Proof.RefIndex
import proofs.«102790_j13443247636702_1_alg».proof.Proof.LossOf
import proofs.«102790_j13443247636702_1_alg».proof.Proof.SumLaws

noncomputable section

namespace Cert.ReferenceIdeal.Hand

open Cert.ReferenceIdeal Cert.ReferenceIdeal.Gen Idealize.ShloMosaic Idealize.ShloMosaic.ValueIdx Cert.Yolo
open Finset

/-- A sum over the grid coordinates is the sum over the cell numbers. -/
theorem sum_grid {β : Type*} [AddCommMonoid β] (g : ℕ → β) :
    ∑ n : Fin 65536, ∑ i : Fin 7, ∑ j : Fin 7, g ((n.val * 7 + i.val) * 7 + j.val) = ∑ ρ ∈ range 3211264, g ρ := by
  have h1 : (3211264 : ℕ) = 65536 * 49 := by norm_num
  rw [h1, sum_range_mul, Finset.sum_range]
  refine Finset.sum_congr rfl fun n _ => ?_
  have h2 := sum_range_mul (fun r => g (49 * n.val + r)) 7 7
  rw [show (7 * 7 : ℕ) = 49 by norm_num] at h2
  rw [h2, Finset.sum_range]
  refine Finset.sum_congr rfl fun i _ => ?_
  rw [Finset.sum_range]
  refine Finset.sum_congr rfl fun j _ => ?_
  congr 1; omega

/-- The sum of all entries of a per-cell array. -/
theorem sumAll1_eq (x : V1 Ideal) (j : S_.Idx) :
    sumAll1 x j = ∑ n : Fin 65536, ∑ i : Fin 7, ∑ k : Fin 7, x (ix4 n i k (0 : Fin 1)) := by
  show Ideal.hostReduceAdd reducesTo_S65536x7x7x1_S_d0_1_2_3 x (Ideal.ofBits .f32 0x00000000#32) j = _
  rw [Ideal.hostReduceAdd_total _ (fun b => b.elim0), Ideal.ofBits_zero_f32, zero_add, sum_idx4]
  simp only [Fin.sum_univ_one]

/-- The sum of all entries of a per-cell, per-class array. -/
theorem sumAll20_eq (x : V20 Ideal) (j : S_.Idx) :
    sumAll20 x j = ∑ n : Fin 65536, ∑ i : Fin 7, ∑ k : Fin 7, ∑ c : Fin 20, x (ix4 n i k c) := by
  show Ideal.hostReduceAdd reducesTo_S65536x7x7x20_S_d0_1_2_3 x (Ideal.ofBits .f32 0x00000000#32) j = _
  rw [Ideal.hostReduceAdd_total _ (fun b => b.elim0), Ideal.ofBits_zero_f32, zero_add, sum_idx4]

/-- The total: five times zero is zero, and the word for one half is the half. -/
theorem total_apply (a b c d : V0 Ideal) (j : S_.Idx) : total a b c d j = a j + halfE * (b j + c j) + d j := by
  show Ideal.ofBits .f32 0x40A00000#32 * Ideal.ofBits .f32 0x00000000#32 + a j + halfE * (b j + c j) + d j = _
  rw [Ideal.ofBits_zero_f32, mul_zero, zero_add]

section Sums

variable (X0 X1 : V30 Ideal)

theorem objSum : (∑ n : Fin 65536, ∑ i : Fin 7, ∑ k : Fin 7, objV X0 X1 (ix4 n i k (0 : Fin 1))) = sumObj X0 X1 := by
  unfold sumObj
  refine Eq.trans ?_ (sum_grid fun ρ => rowObj (cellAt X0 ρ) (cellAt X1 ρ))
  refine Finset.sum_congr rfl fun n _ => Finset.sum_congr rfl fun i _ => Finset.sum_congr rfl fun k _ => ?_
  rw [objV_cell, cellOf_eq, cellOf_eq]

theorem no1Sum : (∑ n : Fin 65536, ∑ i : Fin 7, ∑ k : Fin 7, no1V X0 X1 (ix4 n i k (0 : Fin 1))) = sumNo1 X0 X1 := by
  unfold sumNo1
  refine Eq.trans ?_ (sum_grid fun ρ => rowNo1 (cellAt X0 ρ) (cellAt X1 ρ))
  refine Finset.sum_congr rfl fun n _ => Finset.sum_congr rfl fun i _ => Finset.sum_congr rfl fun k _ => ?_
  rw [no1V_cell, cellOf_eq, cellOf_eq]

theorem no2Sum : (∑ n : Fin 65536, ∑ i : Fin 7, ∑ k : Fin 7, no2V X0 X1 (ix4 n i k (0 : Fin 1))) = sumNo2 X0 X1 := by
  unfold sumNo2
  refine Eq.trans ?_ (sum_grid fun ρ => rowNo2 (cellAt X0 ρ) (cellAt X1 ρ))
  refine Finset.sum_congr rfl fun n _ => Finset.sum_congr rfl fun i _ => Finset.sum_congr rfl fun k _ => ?_
  rw [no2V_cell, cellOf_eq, cellOf_eq]

theorem clsSum :
    (∑ n : Fin 65536, ∑ i : Fin 7, ∑ k : Fin 7, ∑ c : Fin 20, clsV X0 X1 (ix4 n i k c)) = sumCls X0 X1 := by
  unfold sumCls
  refine Eq.trans ?_ (sum_grid fun ρ => ∑ c : Fin 20, rowCls (cellAt X0 ρ) (cellAt X1 ρ) c)
  refine Finset.sum_congr rfl fun n _ => Finset.sum_congr rfl fun i _ => Finset.sum_congr rfl fun k _ =>
    Finset.sum_congr rfl fun c _ => ?_
  rw [clsV_cell, cellOf_eq, cellOf_eq]

/-- What the reference returns is the loss of the two arguments. -/
theorem lossStage_eq : lossStage X0 X1 = fun _ => lossOf X0 X1 := by
  funext j
  unfold lossStage lossOf
  rw [total_apply, sumAll1_eq, sumAll1_eq, sumAll1_eq, sumAll20_eq, objSum, no1Sum, no2Sum, clsSum]

end Sums

end Cert.ReferenceIdeal.Hand

end
-- ==== Proof.RefLoss.lean ====
/-
  The reference's run: it returns the loss.

  Every weakly fair execution of the reference terminates with each buffer at what its operations leave in it.
  The result buffer holds the reference's value of the two arguments, which on the extended reals is the loss
  of the prediction against the target; the two arguments end as they began.
-/
import proofs.«102790_j13443247636702_1_alg».proof.Proof.RefCompose
import proofs.«102790_j13443247636702_1_alg».proof.Proof.RefSums

noncomputable section

open Idealize.ShloMosaic Idealize.ShloMosaic.TcCoe Idealize.SL.Sem Idealize.ShloMosaic.StableHlo

namespace Cert.ReferenceIdeal.Hand

open Cert.ReferenceIdeal Cert.ReferenceIdeal.Gen

theorem run_loss (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v174)
          = (fun _ => Cert.Yolo.lossOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v174).trans ((after_ops_v174 (launchContents m c)).trans
          (lossStage_eq (launchContents m c (Proc.devRef .tc main_arg0)) (launchContents m c (Proc.devRef .tc main_arg1)))),
        (h c main_arg0).trans (after_ops_arg0 (launchContents m c)),
        (h c main_arg1).trans (after_ops_arg1 (launchContents m c))⟩)
    (run_raw m ρ)

end Cert.ReferenceIdeal.Hand

end
-- ==== Proof.lean ====
/-
  A detection loss computed tile by tile equals the loss computed in whole-array sums, over the extended reals.

  Both programs take a prediction and a target, each 65536 × 7 × 7 × 30: 3211264 grid cells of 30 numbers. Per
  cell both form the overlap ratios of two predicted boxes with the target box (corners are centre ∓ half the
  extent — one program multiplies the extent by one half, the other divides it by two, the same extended real —,
  the overlap is the product of the two side overlaps clipped at zero, the ratio is overlap over |area| + |area|
  - overlap + ε), pick the second box when its ratio is strictly the greater, and form the objectness term, two
  no-object terms and twenty class terms, each a squared difference.

  The kernel walks the cells in 196 tiles of 16384 rows on a 2 × 98 grid. At a grid point it adds the tile's
  loss  Σ objectness + ½ · (Σ no-object₁ + Σ no-object₂) + Σ class  to a one-number accumulator, which it sets
  to zero at the first point of each run of 98 and copies to that run's output entry at the last; a final host
  sum adds the two entries. The reference sums each of the four kinds of term over all cells and combines
  0 + Σ objectness + ½ · (Σ no-object₁ + Σ no-object₂) + Σ class  (the zero is five times a sum over an empty
  slice, printed as the product of the words for 5 and 0).

  Both are `Cert.Yolo.lossOf` of the two arguments: a sum over the cells in row-major order may be taken tile by
  tile and run by run, and the factor one half, a finite nonnegative real, distributes over any finite sum of
  extended reals, infinite summands included. No finiteness of the inputs is used.

  The three programs' runs: the kernels' frames are the frame certificates of their generated modules; the
  idealized kernel's result is read off its frame run (the accumulator as a fold over each run of points, the
  output array from the two flushed blocks, the last host line); the reference is run as a line of host
  operations, window by window. The idealization rewrote nothing, so its preservation claim is trivial.
-/
import proofs.«102790_j13443247636702_1_alg».proof.Defs
import proofs.«102790_j13443247636702_1_alg».proof.Proof.Gen.Kernel
import proofs.«102790_j13443247636702_1_alg».proof.Proof.Gen.Kernel.Frame
import proofs.«102790_j13443247636702_1_alg».proof.Proof.Gen.KernelIdeal
import proofs.«102790_j13443247636702_1_alg».proof.Proof.Gen.KernelIdeal.Frame
import proofs.«102790_j13443247636702_1_alg».proof.Proof.Gen.ReferenceIdeal
import proofs.«102790_j13443247636702_1_alg».proof.Proof.Gen.Pre_finite_inputs
import proofs.«102790_j13443247636702_1_alg».proof.Proof.KernelLoss
import proofs.«102790_j13443247636702_1_alg».proof.Proof.RefLoss
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run to the loss, the result dropped. -/
theorem frame_reference : Cert.frame_ReferenceIdeal := fun m ρ _ =>
  (θ_run Cert.ReferenceIdeal.defs _ _).mono (fun _ h c => (h c).2) (Cert.ReferenceIdeal.Hand.run_loss m ρ)

/-- From memories that agree on the arguments both idealized programs end with their result at the loss of
    those arguments. -/
theorem algebraic : Cert.algebraic_KernelIdeal_ReferenceIdeal := by
  intro m ρ m' ρ' _ hagree
  refine ⟨fun c => fun _ => Cert.Yolo.lossOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Acc.kernel_run m ρ, ?_⟩
  refine (θ_run Cert.ReferenceIdeal.defs _ _).mono (fun _ h c => ⟨?_, (h c).2⟩)
    (Cert.ReferenceIdeal.Hand.run_loss m' ρ')
  rw [(h c).1, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
